-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) (main_arg1 : IVec S65536 32) (main_arg2 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg2
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  main_v8
-- ==== Kernel.lean ====
abbrev S65536x1024 : Shape := ⟨2, ![65536, 1024]⟩
abbrev S65536 : Shape := ⟨1, ![65536]⟩
abbrev S65536x1 : Shape := ⟨2, ![65536, 1]⟩
abbrev S2x512x1024 : Shape := ⟨3, ![2, 512, 1024]⟩
abbrev S2x1x512 : Shape := ⟨3, ![2, 1, 512]⟩
abbrev S2048x1024 : Shape := ⟨2, ![2048, 1024]⟩
abbrev S2048x1 : Shape := ⟨2, ![2048, 1]⟩
abbrev S1x512x1024 : Shape := ⟨3, ![1, 512, 1024]⟩
abbrev S1x1x512 : Shape := ⟨3, ![1, 1, 512]⟩
abbrev S512x1024 : Shape := ⟨2, ![512, 1024]⟩
abbrev S1x512 : Shape := ⟨2, ![1, 512]⟩
abbrev S2048x512 : Shape := ⟨2, ![2048, 512]⟩
abbrev S512 : Shape := ⟨1, ![512]⟩
abbrev S512x1 : Shape := ⟨2, ![512, 1]⟩
abbrev S_ : Shape := ⟨0, ![]⟩
abbrev S65536x512 : Shape := ⟨2, ![65536, 512]⟩
abbrev S2048 : Shape := ⟨1, ![2048]⟩

abbrev nBuf : Space → Nat
  | .hbm => 35
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S65536x1024, .f32⟩
  | .hbm, ⟨3, _⟩ => ⟨S65536x1, .i32⟩
  | .hbm, ⟨4, _⟩ => ⟨S2x512x1024, .f32⟩
  | .hbm, ⟨5, _⟩ => ⟨S2x1x512, .f32⟩
  | .hbm, ⟨6, _⟩ => ⟨S1x512x1024, .f32⟩
  | .hbm, ⟨7, _⟩ => ⟨S512x1024, .f32⟩
  | .hbm, ⟨8, _⟩ => ⟨S1x512x1024, .f32⟩
  | .hbm, ⟨9, _⟩ => ⟨S512x1024, .f32⟩
  | .hbm, ⟨10, _⟩ => ⟨S512x1024, .f32⟩
  | .hbm, ⟨11, _⟩ => ⟨S1x1x512, .f32⟩
  | .hbm, ⟨12, _⟩ => ⟨S1x512, .f32⟩
  | .hbm, ⟨13, _⟩ => ⟨S1x1x512, .f32⟩
  | .hbm, ⟨14, _⟩ => ⟨S1x512, .f32⟩
  | .hbm, ⟨15, _⟩ => ⟨S1x512, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S512x1024, .bf16⟩
  | .hbm, ⟨34, _⟩ => ⟨S65536x512, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S1x512x1024, .f32⟩
  | .local _ .vmem, ⟨5, _⟩ => ⟨S1x512x1024, .f32⟩
  | .local _ .vmem, ⟨6, _⟩ => ⟨S1x1x512, .f32⟩
  | .local _ .vmem, ⟨7, _⟩ => ⟨S1x1x512, .f32⟩
  | .local _ .vmem, ⟨8, _⟩ => ⟨S2048x1024, .f32⟩
  | .local _ .vmem, ⟨9, _⟩ => ⟨S2048x1024, .f32⟩
  | .local _ .vmem, ⟨10, _⟩ => ⟨S512x1024, .bf16⟩
  | .local _ .vmem, ⟨11, _⟩ => ⟨S1x512, .f32⟩
  | .local _ .vmem, ⟨12, _⟩ => ⟨S2048x512, .f32⟩
  | .local _ .vmem, ⟨13, _⟩ => ⟨S2048x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S65536_S65536x1 : S65536.ShapeCasts S65536x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  reduces_S2048x512_S512 : S2048x512.Reduces [0] S512
  shapeCasts_S512_S1x512 : S512.ShapeCasts S1x512
  slices_S2x512x1024_S1x512x1024_0_0_0 : S2x512x1024.Slices ![0, 0, 0] S1x512x1024
  slices_S2x512x1024_S1x512x1024_1_0_0 : S2x512x1024.Slices ![1, 0, 0] S1x512x1024
  slices_S2x1x512_S1x1x512_0_0_0 : S2x1x512.Slices ![0, 0, 0] S1x1x512
  slices_S2x1x512_S1x1x512_1_0_0 : S2x1x512.Slices ![1, 0, 0] S1x1x512
  transposes_S1x512_S512x1_1_0 : S1x512.Transposes [1, 0] S512x1
  bcast_S_S512x1 : S_.BroadcastsInDim S512x1 (![] : Fin 0 → Fin S512x1.rank)
  bcast_S512x1_S512x1024_0_1 : S512x1.BroadcastsInDim S512x1024 (![0, 1] : Fin 2 → Fin S512x1024.rank)
  reducesTo_S512x1024_S512_d1 : S512x1024.ReducesTo [1] S512
  h_S_ : 0 < S_.numel
  bcast_S_S512 : S_.BroadcastsInDim S512 (![] : Fin 0 → Fin S512.rank)
  reduces_S2048x1024_S2048 : S2048x1024.Reduces [1] S2048
  shapeCasts_S2048_S2048x1 : S2048.ShapeCasts S2048x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x512_S2048x1024_S512x1024_0_0_1_1_n_n_wf : DotDims.WF S2048x512 S2048x1024 S512x1024 [0] [0] [1] [1] [] []
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S2x512x1024.size a
  hwx0_2 : ∀ i : grid0.Coords, EltTy.bits .f32 = 32 ∨ (Rect.block (s := S2x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S65536x1024.size a
  hwx1_0 : ∀ i : grid1.Coords, EltTy.bits .f32 = 32 ∨ (Rect.block (s := S65536x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .bf16 = 32 ∨ (Rect.block (s := S512x1024) S512x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S65536x512.size a
  hwx1_3 : ∀ i : grid1.Coords, EltTy.bits .f32 = 32 ∨ (Rect.block (s := S65536x512) S2048x512.size (cc1_transform_3 i) (hinb1_3 i)).WholeWords (EltTy.packing .f32)

variable [Facts₀]

def dot_S2048x512_S2048x1024_S512x1024_0_0_1_1_n_n : DotDims S2048x512 S2048x1024 S512x1024 where
  lhsContracting := [0]
  rhsContracting := [0]
  lhsNonContracting := [1]
  rhsNonContracting := [1]
  lhsBatch := []
  rhsBatch := []
  wf := dot_S2048x512_S2048x1024_S512x1024_0_0_1_1_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S65536 : Shape := ⟨1, ![65536]⟩
abbrev S_ : Shape := ⟨0, ![]⟩
abbrev S512x1024 : Shape := ⟨2, ![512, 1024]⟩
abbrev S65536x1 : Shape := ⟨2, ![65536, 1]⟩
abbrev S512 : Shape := ⟨1, ![512]⟩
abbrev S512x1 : Shape := ⟨2, ![512, 1]⟩
abbrev S65536x512 : Shape := ⟨2, ![65536, 512]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S65536x1024, .f32⟩
  | .hbm, ⟨3, _⟩ => ⟨S_, .f32⟩
  | .hbm, ⟨4, _⟩ => ⟨S512x1024, .f32⟩
  | .hbm, ⟨5, _⟩ => ⟨S65536x1, .i32⟩
  | .hbm, ⟨6, _⟩ => ⟨S512x1024, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S512, .f32⟩
  | .hbm, ⟨11, _⟩ => ⟨S65536x1, .i32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S65536x1024, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S512x1024, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S65536x512, .f32⟩
  | .hbm, ⟨34, _⟩ => ⟨S65536x1, .f32⟩
  | .hbm, ⟨35, _⟩ => ⟨S1x512, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S_S512x1024 : S_.BroadcastsInDim S512x1024 (![] : Fin 0 → Fin S512x1024.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S512 : S_.BroadcastsInDim S512 (![] : Fin 0 → Fin S512.rank)
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  reducesTo_S65536x1024_S65536_d1 : S65536x1024.ReducesTo [1] S65536
  h_S_ : 0 < S_.numel
  reducesTo_S512x1024_S512_d1 : S512x1024.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  scatter_S512x1024_S65536x1_S65536x1024_1_0_0_1_wf : ScatterDims.WF S512x1024 S65536x1 S65536x1024 [1] [0] [0] 1
  scatter_S512_S65536x1_S65536_n_0_0_1_wf : ScatterDims.WF S512 S65536x1 S65536 [] [0] [0] 1
  dot_S65536x1024_S512x1024_S65536x512_1_1_0_0_n_n_wf : DotDims.WF S65536x1024 S512x1024 S65536x512 [1] [1] [0] [0] [] []

variable [Facts₀]

def scatter_S512x1024_S65536x1_S65536x1024_1_0_0_1 : ScatterDims S512x1024 S65536x1 S65536x1024 where
  updateWindowDims := [1]
  insertedWindowDims := [0]
  scatterDimsToOperandDims := [0]
  indexVectorDim := 1
  wf := scatter_S512x1024_S65536x1_S65536x1024_1_0_0_1_wf
def scatter_S512_S65536x1_S65536_n_0_0_1 : ScatterDims S512 S65536x1 S65536 where
  updateWindowDims := []
  insertedWindowDims := [0]
  scatterDimsToOperandDims := [0]
  indexVectorDim := 1
  wf := scatter_S512_S65536x1_S65536_n_0_0_1_wf
def dot_S65536x1024_S512x1024_S65536x512_1_1_0_0_n_n : DotDims S65536x1024 S512x1024 S65536x512 where
  lhsContracting := [1]
  rhsContracting := [1]
  lhsNonContracting := [0]
  rhsNonContracting := [0]
  lhsBatch := []
  rhsBatch := []
  wf := dot_S65536x1024_S512x1024_S65536x512_1_1_0_0_n_n_wf

class Facts : Prop extends Facts₀ where

variable [Facts]
-- ==== Proof.Spec.lean ====
/-
  The mathematics both programs compute, index by index over the extended reals.

  Inputs: features `X : [65536, 1024]`, labels `lab : [65536]` (32-bit words), targets `T : [65536, 1024]`.
  `hit w c` is the indicator that the label word `w` names class `c`; the class sums and counts are
  `S c d = ∑ₙ hit (lab n) c · X n d` and `N c = ∑ₙ hit (lab n) c`; the class means `M c d = S c d / max (N c) 1`;
  a row's norm is `max (√(∑_d A r d · A r d)) ε`; the logits are `(∑_d T n d · M c d) / (‖T n‖ · ‖M c‖) · 50`.

  The kernel reaches the same numbers by another arrangement: each of two cores sums sixteen tiles of 2048 rows
  (`partSum`, `partCount`), the two partial results are added before the division (`kMean`), the class norms'
  reciprocals are taken once (`kInvNorm`) and the logits are the product
  `(∑_d T n d · M c d) · ((1 / ‖T n‖) · 50) · (1 / ‖M c‖)` (`kLogits`).
-/
import Idealize.ShloMosaic.PureOps.Ideal
import Idealize.ShloMosaic.Lib.ValueIdx

noncomputable section

open scoped BigOperators

namespace Cert.Spec

open Idealize.ShloMosaic Idealize.ShloMosaic.ValueIdx

/-- The four float words the two programs share: 0, 1, ε = 1e-30 (as f32) and 50. -/
abbrev zeroW : EReal := Ideal.ofBits .f32 0x00000000#32
abbrev oneW : EReal := Ideal.ofBits .f32 0x3F800000#32
abbrev epsW : EReal := Ideal.ofBits .f32 0x0DA24260#32
abbrev fiftyW : EReal := Ideal.ofBits .f32 0x42480000#32

/-- The indicator that the label word `w` names class `c`: a word outside `[0, 512)` names no class. -/
def hit (w : BitVec 32) (c : Fin 512) : EReal := if w = BitVec.ofNat 32 c.val then 1 else 0

/-! ## The reference's arrangement -/

/-- `S c d`: the sum of the feature rows whose label is `c`, at column `d`. -/
def classSum (X : (⟨2, ![65536, 1024]⟩ : Shape).Idx → EReal) (lab : (⟨1, ![65536]⟩ : Shape).Idx → BitVec 32)
    (c : Fin 512) (d : Fin 1024) : EReal :=
  ∑ n : Fin 65536, hit (lab (ix1 n)) c * X (ix2 n d)

/-- `N c`: how many rows have label `c`. -/
def classCount (lab : (⟨1, ![65536]⟩ : Shape).Idx → BitVec 32) (c : Fin 512) : EReal :=
  ∑ n : Fin 65536, hit (lab (ix1 n)) c

/-- The class means `M c d = S c d / max (N c) 1`. -/
def classMean (X : (⟨2, ![65536, 1024]⟩ : Shape).Idx → EReal) (lab : (⟨1, ![65536]⟩ : Shape).Idx → BitVec 32) :
    (⟨2, ![512, 1024]⟩ : Shape).Idx → EReal :=
  fun i => Ideal.div (classSum X lab (i 0) (i 1)) (max (classCount lab (i 0)) oneW)

/-- A row's Euclidean norm, kept away from zero: `max (√(∑_d A r d · A r d)) ε`. -/
def normOf {n : Nat} (A : (⟨2, ![n, 1024]⟩ : Shape).Idx → EReal) (r : Fin n) : EReal :=
  max (Ideal.sqrt (∑ d : Fin 1024, A (ix2 r d) * A (ix2 r d))) epsW

/-- The inner product of row `r` of `A` with row `c` of `B`. -/
def dotOf {n k : Nat} (A : (⟨2, ![n, 1024]⟩ : Shape).Idx → EReal) (B : (⟨2, ![k, 1024]⟩ : Shape).Idx → EReal)
    (r : Fin n) (c : Fin k) : EReal :=
  ∑ d : Fin 1024, A (ix2 r d) * B (ix2 c d)

/-- The scaled cosine similarities of the target rows against the rows of `M`, as the reference writes them. -/
def logitsOf (T : (⟨2, ![65536, 1024]⟩ : Shape).Idx → EReal) (M : (⟨2, ![512, 1024]⟩ : Shape).Idx → EReal) :
    (⟨2, ![65536, 512]⟩ : Shape).Idx → EReal :=
  fun i => Ideal.div (dotOf T M (i 0) (i 1)) (normOf T (i 0) * normOf M (i 1)) * fiftyW

/-- The first result: the logits against the class means. -/
def logits (X : (⟨2, ![65536, 1024]⟩ : Shape).Idx → EReal) (lab : (⟨1, ![65536]⟩ : Shape).Idx → BitVec 32)
    (T : (⟨2, ![65536, 1024]⟩ : Shape).Idx → EReal) : (⟨2, ![65536, 512]⟩ : Shape).Idx → EReal :=
  logitsOf T (classMean X lab)

/-! ## The kernel's arrangement -/

/-- The feature row that core `p` meets in its tile `s` at position `r`: row `(16 p + s) · 2048 + r`. -/
def rowOf (p : Fin 2) (s : Fin 16) (r : Fin 2048) : Fin 65536 :=
  ⟨(p.val * 16 + s.val) * 2048 + r.val, by have := p.isLt; have := s.isLt; have := r.isLt; omega⟩

/-- Core `p`'s partial class sums over its sixteen tiles (labels as the [65536, 1] column the kernel is given). -/
def partSum (X : (⟨2, ![65536, 1024]⟩ : Shape).Idx → EReal) (lab2 : (⟨2, ![65536, 1]⟩ : Shape).Idx → BitVec 32) :
    (⟨3, ![2, 512, 1024]⟩ : Shape).Idx → EReal :=
  fun i => ∑ s : Fin 16, ∑ r : Fin 2048,
    hit (lab2 (ix2 (rowOf (i 0) s r) (0 : Fin 1))) (i 1) * X (ix2 (rowOf (i 0) s r) (i 2))

/-- Core `p`'s partial class counts. -/
def partCount (lab2 : (⟨2, ![65536, 1]⟩ : Shape).Idx → BitVec 32) : (⟨3, ![2, 1, 512]⟩ : Shape).Idx → EReal :=
  fun i => ∑ s : Fin 16, ∑ r : Fin 2048, hit (lab2 (ix2 (rowOf (i 0) s r) (0 : Fin 1))) (i 2)

/-- The class means from the two cores' partial sums `S2` and counts `C2`. -/
def kMean (S2 : (⟨3, ![2, 512, 1024]⟩ : Shape).Idx → EReal) (C2 : (⟨3, ![2, 1, 512]⟩ : Shape).Idx → EReal) :
    (⟨2, ![512, 1024]⟩ : Shape).Idx → EReal :=
  fun i => Ideal.div (S2 (ix3 (0 : Fin 2) (i 0) (i 1)) + S2 (ix3 (1 : Fin 2) (i 0) (i 1)))
    (max (C2 (ix3 (0 : Fin 2) (0 : Fin 1) (i 0)) + C2 (ix3 (1 : Fin 2) (0 : Fin 1) (i 0))) oneW)

/-- The reciprocal class norms, as the [1, 512] row the second kernel is given. -/
def kInvNorm (M : (⟨2, ![512, 1024]⟩ : Shape).Idx → EReal) : (⟨2, ![1, 512]⟩ : Shape).Idx → EReal :=
  fun i => Ideal.div oneW (normOf M (i 1))

/-- The second kernel's output from the targets `T`, the means `Mb` and a row `iv` of per-class factors. -/
def kLogits (T : (⟨2, ![65536, 1024]⟩ : Shape).Idx → EReal) (Mb : (⟨2, ![512, 1024]⟩ : Shape).Idx → EReal)
    (iv : (⟨2, ![1, 512]⟩ : Shape).Idx → EReal) : (⟨2, ![65536, 512]⟩ : Shape).Idx → EReal :=
  fun i => dotOf T Mb (i 0) (i 1) * (Ideal.div oneW (normOf T (i 0)) * fiftyW) * iv (ix2 (0 : Fin 1) (i 1))

end Cert.Spec

end
-- ==== Proof.Region0Body.lean ====
/-
  One grid point of the first kernel, as values. With `x0 : [2048, 1024]` the tile's feature rows and `x1 : [2048, 1]`
  its label column, the one-hot matrix has entry `(r, c)` equal to `hit (x1 r) c`; contracted over the rows with `x0`
  it gives the tile's class sums `tileSum x0 x1 (0, c, d) = ∑ᵣ hit (x1 r) c · x0 r d`, and summed over the rows the
  tile's class counts `tileCount x1 (0, 0, c) = ∑ᵣ hit (x1 r) c`. At a core's first point the output blocks are reset to
  zero before the tile is added, so they are left at the tile's sums and counts; at a later point they are left at what
  the point before left plus the tile's.
-/
import proofs.«406508_j53584011985262_3_alg».proof.Proof.Gen.KernelIdeal.Frame
import proofs.«406508_j53584011985262_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.R0

open Cert.KernelIdeal Cert.KernelIdeal.Gen

/-- A tile's class sums: entry `(0, c, d)` is `∑ᵣ hit (x1 r) c · x0 r d`. -/
def tileSum (x0 : Vec Ideal S2048x1024 .f32) (x1 : Vec Ideal S2048x1 .i32) : Vec Ideal S1x512x1024 .f32 :=
  fun j => ∑ r : Fin 2048, Cert.Spec.hit (x1 (ix2 r (0 : Fin 1))) (j 1) * x0 (ix2 r (j 2))

/-- A tile's class counts: entry `(0, 0, c)` is `∑ᵣ hit (x1 r) c`. -/
def tileCount (x1 : Vec Ideal S2048x1 .i32) : Vec Ideal S1x1x512 .f32 :=
  fun j => ∑ r : Fin 2048, Cert.Spec.hit (x1 (ix2 r (0 : Fin 1))) (j 2)

/-! The auxiliary facts sit in a namespace of their own; the four case values follow it. -/

namespace Body

/-- The one-bit word of "w names class c", widened and read as a float, is the indicator. -/
theorem hitWord (w : BitVec 32) (c : Fin 512) :
    (FloatOps.sitofp (F := Ideal) .f32 ((IntOp.cmpi .eq w (BitVec.ofNat 32 c.val)).setWidth 32) : Ideal .f32)
      = Cert.Spec.hit w c := by
  unfold Cert.Spec.hit
  by_cases h : w = BitVec.ofNat 32 c.val
  · have e : IntOp.cmpi .eq w (BitVec.ofNat 32 c.val) = 1#1 := IntOp.cmpi_eq.mpr h
    rw [e, if_pos h]
    show (((BitVec.setWidth 32 1#1).toInt : ℝ) : EReal) = 1
    have e1 : (BitVec.setWidth 32 1#1).toInt = 1 := by decide
    rw [e1]; simp
  · have e : IntOp.cmpi .eq w (BitVec.ofNat 32 c.val) = 0#1 := by
      rcases BitVec.eq_zero_or_eq_one (IntOp.cmpi .eq w (BitVec.ofNat 32 c.val)) with h0 | h1
      · exact h0
      · exact absurd (IntOp.cmpi_eq.mp h1) h
    rw [e, if_neg h]
    show (((BitVec.setWidth 32 0#1).toInt : ℝ) : EReal) = 0
    have e0 : (BitVec.setWidth 32 0#1).toInt = 0 := by decide
    rw [e0]; simp

/-- The one-hot matrix: entry (r, c) is the indicator that row r's label names class c. -/
theorem onehot_apply (x1 : Vec Ideal S2048x1 .i32) (r : Fin 2048) (c : Fin 512) :
    k0_pay3 (F := Ideal) x1 (ix2 r c) = Cert.Spec.hit (x1 (ix2 r (0 : Fin 1))) c := by
  have hb : broadcastTo S2048x512 (shapeCast S2048x1 x1 shapeCasts_S2048x1_S2048x1) broadcasts_S2048x1_S2048x512 (ix2 r c)
      = x1 (ix2 r (0 : Fin 1)) := by
    rw [shapeCast_self]
    exact broadcastTo_apply x1 broadcasts_S2048x1_S2048x512 (ix2 r c) (ix2 r (0 : Fin 1))
      (fun a => by match a with | ⟨0, _⟩ => rfl | ⟨1, _⟩ => rfl)
  have hi : iota .tc S2048x512 32 [1] iota_S2048x512_d1_w32 (ix2 r c) = BitVec.ofNat 32 c.val :=
    iota_single_apply .tc S2048x512 32 1 iota_S2048x512_d1_w32 (ix2 r c)
  unfold k0_pay3
  show FloatOps.sitofp (F := Ideal) .f32 ((IntOp.cmpi .eq
      (broadcastTo S2048x512 (shapeCast S2048x1 x1 shapeCasts_S2048x1_S2048x1) broadcasts_S2048x1_S2048x512 (ix2 r c))
      (iota .tc S2048x512 32 [1] iota_S2048x512_d1_w32 (ix2 r c))).setWidth 32) = _
  rw [hb, hi]
  exact hitWord _ c

/-! The contraction's operand indices, axis by axis: the rows of both operands are contracted. -/

theorem lhsAxis0 (j : S512x1024.Idx) (q : dot_S2048x512_S2048x1024_S512x1024_0_0_1_1_n_n.contr.Idx) :
    (dot_S2048x512_S2048x1024_S512x1024_0_0_1_1_n_n.lhsIdx j q 0).val = (q ⟨0, by decide⟩).val :=
  dot_S2048x512_S2048x1024_S512x1024_0_0_1_1_n_n.lhsIdx_val_of_single rfl j q
theorem lhsAxis1 (j : S512x1024.Idx) (q : dot_S2048x512_S2048x1024_S512x1024_0_0_1_1_n_n.contr.Idx) :
    (dot_S2048x512_S2048x1024_S512x1024_0_0_1_1_n_n.lhsIdx j q 1).val = (j 0).val := by
  unfold DotDims.lhsIdx
  rw [dif_neg (show ¬(1 : Fin S2048x512.rank) ∈ dot_S2048x512_S2048x1024_S512x1024_0_0_1_1_n_n.lhsBatch by decide), dif_pos (show (1 : Fin S2048x512.rank) ∈ dot_S2048x512_S2048x1024_S512x1024_0_0_1_1_n_n.lhsNonContracting by decide)]
  rfl
theorem rhsAxis0 (j : S512x1024.Idx) (q : dot_S2048x512_S2048x1024_S512x1024_0_0_1_1_n_n.contr.Idx) :
    (dot_S2048x512_S2048x1024_S512x1024_0_0_1_1_n_n.rhsIdx j q 0).val = (q ⟨0, by decide⟩).val :=
  dot_S2048x512_S2048x1024_S512x1024_0_0_1_1_n_n.rhsIdx_val_of_single rfl j q
theorem rhsAxis1 (j : S512x1024.Idx) (q : dot_S2048x512_S2048x1024_S512x1024_0_0_1_1_n_n.contr.Idx) :
    (dot_S2048x512_S2048x1024_S512x1024_0_0_1_1_n_n.rhsIdx j q 1).val = (j 1).val := by
  unfold DotDims.rhsIdx
  rw [dif_neg (show ¬(1 : Fin S2048x1024.rank) ∈ dot_S2048x512_S2048x1024_S512x1024_0_0_1_1_n_n.rhsBatch by decide), dif_pos (show (1 : Fin S2048x1024.rank) ∈ dot_S2048x512_S2048x1024_S512x1024_0_0_1_1_n_n.rhsNonContracting by decide)]
  rfl

/-- The product of the transposed left operand with the right one, into the zero accumulator: entry (c, d) is the sum
    over the 2048 rows of left (r, c) times right (r, d). -/
theorem rowContraction_apply (A : FVec Ideal S2048x512 .bf16) (B : FVec Ideal S2048x1024 .bf16) (c : Fin 512) (d : Fin 1024) :
    matmul dot_S2048x512_S2048x1024_S512x1024_0_0_1_1_n_n none A B (constant (F := Ideal) S512x1024 .f32 0x00000000#32) (ix2 c d)
      = ∑ r : Fin 2048, A (ix2 r c) * B (ix2 r d) := by
  simp only [matmul]
  rw [Ideal.matmul_constant_zero_apply, ← Equiv.sum_comp (contrEquiv1 dot_S2048x512_S2048x1024_S512x1024_0_0_1_1_n_n 2048 rfl rfl).symm]
  refine Finset.sum_congr rfl fun k _ => ?_
  have hk := contrEquiv1_symm_val dot_S2048x512_S2048x1024_S512x1024_0_0_1_1_n_n 2048 rfl rfl k
  have el : dot_S2048x512_S2048x1024_S512x1024_0_0_1_1_n_n.lhsIdx (ix2 c d) ((contrEquiv1 dot_S2048x512_S2048x1024_S512x1024_0_0_1_1_n_n 2048 rfl rfl).symm k) = ix2 k c := funext fun a => Fin.ext (by
    match a with
    | ⟨0, _⟩ => exact (lhsAxis0 _ _).trans hk
    | ⟨1, _⟩ => exact lhsAxis1 _ _)
  have er : dot_S2048x512_S2048x1024_S512x1024_0_0_1_1_n_n.rhsIdx (ix2 c d) ((contrEquiv1 dot_S2048x512_S2048x1024_S512x1024_0_0_1_1_n_n 2048 rfl rfl).symm k) = ix2 k d := funext fun a => Fin.ext (by
    match a with
    | ⟨0, _⟩ => exact (rhsAxis0 _ _).trans hk
    | ⟨1, _⟩ => exact rhsAxis1 _ _)
  rw [el, er]

/-- The sum over the rows of a [2048, 512] matrix, read at column c. -/
theorem rowSum_apply (src : FVec Ideal S2048x512 .f32) (hacc : (0x00000000#32 : BitVec 32) = 0x00000000#32) (c : Fin 512) :
    multiReduction .add [0] S512 src 0x00000000#32 reduces_S2048x512_S512 (.inl rfl) hacc (ix1 c) = ∑ r : Fin 2048, src (ix2 r c) := by
  refine (Ideal.multiReduction_add_single src 0x00000000#32 reduces_S2048x512_S512 (.inl rfl) hacc (ix1 c)).trans ?_
  refine Finset.sum_congr rfl fun r _ => congrArg src ?_
  exact funext fun a => Fin.ext (by match a with | ⟨0, _⟩ => rfl | ⟨1, _⟩ => rfl)

/-- The offset of a whole rank-3 block: zero on every axis. -/
theorem hz3 : (![0, 0, 0] : Fin 3 → Nat) = fun _ => 0 := by
  funext a; match a with | ⟨0, _⟩ => rfl | ⟨1, _⟩ => rfl | ⟨2, _⟩ => rfl
/-- The offset of a whole rank-2 block: zero on both axes. -/
theorem hz2 : (![0, 0] : Fin 2 → Nat) = fun _ => 0 := by
  funext a; match a with | ⟨0, _⟩ => rfl | ⟨1, _⟩ => rfl

theorem piece_B_2 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : ¬cond0_0 i)
    (x0 : Vec Ideal S2048x1024 .f32) (x1 : Vec Ideal S2048x1 .i32) (xo2 : Vec Ideal S1x512x1024 .f32) (xo3 : Vec Ideal S1x1x512 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S1x512x1024) hz3, View.ld_unit_zero (S := S2048x1024) hz2, View.ld_unit_zero (S := S2048x1) hz2]

theorem piece_B_3 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : ¬cond0_0 i)
    (x0 : Vec Ideal S2048x1024 .f32) (x1 : Vec Ideal S2048x1 .i32) (xo2 : Vec Ideal S1x512x1024 .f32) (xo3 : Vec Ideal S1x1x512 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S1x1x512) hz3, View.ld_unit_zero (S := S2048x1024) hz2, View.ld_unit_zero (S := S2048x1) hz2]

theorem piece_A_2 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : cond0_0 i)
    (x0 : Vec Ideal S2048x1024 .f32) (x1 : Vec Ideal S2048x1 .i32) :
    out0_A_2 c i a2 h2 a3 h3 a4 h4 a5 h5 hc x0 x1 = k0_pay4 x1 x0 (k0_pay1 (F := Ideal)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x512x1024) hz3, View.readCov_unit_zero (S := S1x512x1024) _ hz3]
  simp only [View.readAt_eq_ld, h2.read_unread, h3.read_unread, View.ld_unit_zero (S := S1x512x1024) hz3, View.ld_unit_zero (S := S2048x1024) hz2, View.ld_unit_zero (S := S2048x1) hz2]

theorem piece_A_3 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : cond0_0 i)
    (x0 : Vec Ideal S2048x1024 .f32) (x1 : Vec Ideal S2048x1 .i32) :
    out0_A_3 c i a2 h2 a3 h3 a4 h4 a5 h5 hc x0 x1 = k0_pay5 x1 (k0_pay2 (F := Ideal)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, View.ld_unit_zero (S := S1x1x512) hz3, View.ld_unit_zero (S := S2048x1024) hz2, View.ld_unit_zero (S := S2048x1) hz2]

/-- The sums block after the update: what was loaded plus the tile's class sums. -/
theorem pay4_apply (x1 : Vec Ideal S2048x1 .i32) (x0 : Vec Ideal S2048x1024 .f32) (xo : Vec Ideal S1x512x1024 .f32)
    (c : Fin 512) (d : Fin 1024) :
    k0_pay4 x1 x0 xo (ix3 (0 : Fin 1) c d) = xo (ix3 (0 : Fin 1) c d) + tileSum x0 x1 (ix3 (0 : Fin 1) c d) := by
  unfold k0_pay4
  refine (shapeCast_ab_1ab_apply _ shapeCasts_S512x1024_S1x512x1024 (0 : Fin 1) c d).trans ?_
  refine (congrArg₂ (· + ·) (shapeCast_1ab_ab_apply xo shapeCasts_S1x512x1024_S512x1024 c d)
    (rowContraction_apply (truncf .bf16 (k0_pay3 x1) bitsLt_bf16_f32) (truncf .bf16 x0 bitsLt_bf16_f32) c d)).trans ?_
  exact congrArg (xo (ix3 (0 : Fin 1) c d) + ·)
    (Finset.sum_congr rfl fun r _ => congrArg (· * x0 (ix2 r d)) (onehot_apply x1 r c))

/-- The counts block after the update: what was loaded plus the tile's class counts. -/
theorem pay5_apply (x1 : Vec Ideal S2048x1 .i32) (xo : Vec Ideal S1x1x512 .f32) (c : Fin 512) :
    k0_pay5 x1 xo (ix3 (0 : Fin 1) (0 : Fin 1) c)
      = xo (ix3 (0 : Fin 1) (0 : Fin 1) c) + tileCount x1 (ix3 (0 : Fin 1) (0 : Fin 1) c) := by
  unfold k0_pay5
  refine (shapeCast_ab_1ab_apply _ shapeCasts_S1x512_S1x1x512 (0 : Fin 1) (0 : Fin 1) c).trans ?_
  refine (congrArg₂ (· + ·) (shapeCast_1ab_ab_apply xo shapeCasts_S1x1x512_S1x512 (0 : Fin 1) c)
    ((shapeCast_a_1a_apply _ shapeCasts_S512_S1x512 (0 : Fin 1) c).trans (rowSum_apply (k0_pay3 x1) rfl c))).trans ?_
  exact congrArg (xo (ix3 (0 : Fin 1) (0 : Fin 1) c) + ·) (Finset.sum_congr rfl fun r _ => onehot_apply x1 r c)

/-- The reset sums block is zero everywhere. -/
theorem pay1_apply (c : Fin 512) (d : Fin 1024) : k0_pay1 (F := Ideal) (ix3 (0 : Fin 1) c d) = 0 := by
  unfold k0_pay1
  refine (shapeCast_ab_1ab_apply _ shapeCasts_S512x1024_S1x512x1024 (0 : Fin 1) c d).trans ?_
  exact Ideal.ofBits_zero_f32

/-- The reset counts block is zero everywhere. -/
theorem pay2_apply (c : Fin 512) : k0_pay2 (F := Ideal) (ix3 (0 : Fin 1) (0 : Fin 1) c) = 0 := by
  unfold k0_pay2
  refine (shapeCast_ab_1ab_apply _ shapeCasts_S1x512_S1x1x512 (0 : Fin 1) (0 : Fin 1) c).trans ?_
  exact Ideal.ofBits_zero_f32

/-- Every index of a [1, 512, 1024] block is (0, c, d). -/
theorem idx_sums (j : S1x512x1024.Idx) : ∃ (c : Fin 512) (d : Fin 1024), j = ix3 (0 : Fin 1) c d :=
  ⟨j 1, j 2, (eq_ix3 j).trans
    (congrArg (fun u : Fin 1 => ix3 u (j 1) (j 2)) (Subsingleton.elim (α := Fin 1) (j 0) 0))⟩

/-- Every index of a [1, 1, 512] block is (0, 0, c). -/
theorem idx_counts (j : S1x1x512.Idx) : ∃ c : Fin 512, j = ix3 (0 : Fin 1) (0 : Fin 1) c :=
  ⟨j 2, (eq_ix3 j).trans
    (congrArg₂ (fun u v : Fin 1 => ix3 u v (j 2)) (Subsingleton.elim (α := Fin 1) (j 0) 0)
      (Subsingleton.elim (α := Fin 1) (j 1) 0))⟩

end Body

open Body

/-- A core's first point leaves the sums block at the tile's class sums. -/
theorem out_A_2 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : cond0_0 i)
    (x0 : Vec Ideal S2048x1024 .f32) (x1 : Vec Ideal S2048x1 .i32) :
    out0_A_2 c i a2 h2 a3 h3 a4 h4 a5 h5 hc x0 x1 = tileSum x0 x1 := by
  rw [piece_A_2]
  funext j
  obtain ⟨p, q, rfl⟩ := idx_sums j
  rw [pay4_apply, pay1_apply, zero_add]

/-- A core's first point leaves the counts block at the tile's class counts. -/
theorem out_A_3 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : cond0_0 i)
    (x0 : Vec Ideal S2048x1024 .f32) (x1 : Vec Ideal S2048x1 .i32) :
    out0_A_3 c i a2 h2 a3 h3 a4 h4 a5 h5 hc x0 x1 = tileCount x1 := by
  rw [piece_A_3]
  funext j
  obtain ⟨p, rfl⟩ := idx_counts j
  rw [pay5_apply, pay2_apply, zero_add]

/-- A later point leaves the sums block at what it held plus the tile's class sums. -/
theorem out_B_2 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : ¬cond0_0 i)
    (x0 : Vec Ideal S2048x1024 .f32) (x1 : Vec Ideal S2048x1 .i32) (xo2 : Vec Ideal S1x512x1024 .f32) (xo3 : Vec Ideal S1x1x512 .f32) :
    out0_B_2 c i a2 h2 a3 h3 a4 h4 a5 h5 hc x0 x1 xo2 xo3 = fun j => xo2 j + tileSum x0 x1 j := by
  rw [piece_B_2]
  funext j
  obtain ⟨p, q, rfl⟩ := idx_sums j
  exact pay4_apply x1 x0 xo2 p q

/-- A later point leaves the counts block at what it held plus the tile's class counts. -/
theorem out_B_3 (c : Dev nD) (i : grid0.Coords) (a2 : Memref sig .tc .vmem S2048x1024 .f32) (h2 : a2.IsWhole)
    (a3 : Memref sig .tc .vmem S2048x1 .i32) (h3 : a3.IsWhole) (a4 : Memref sig .tc .vmem S1x512x1024 .f32) (h4 : a4.IsWhole)
    (a5 : Memref sig .tc .vmem S1x1x512 .f32) (h5 : a5.IsWhole) (hc : ¬cond0_0 i)
    (x0 : Vec Ideal S2048x1024 .f32) (x1 : Vec Ideal S2048x1 .i32) (xo2 : Vec Ideal S1x512x1024 .f32) (xo3 : Vec Ideal S1x1x512 .f32) :
    out0_B_3 c i a2 h2 a3 h3 a4 h4 a5 h5 hc x0 x1 xo2 xo3 = fun j => xo3 j + tileCount x1 j := by
  rw [piece_B_3]
  funext j
  obtain ⟨p, rfl⟩ := idx_counts j
  exact pay5_apply x1 xo3 p

end Cert.KernelIdeal.R0

end
-- ==== Proof.Region0.lean ====
/-
  What the first kernel leaves in its two result arrays. At grid point `t = 16 p + s` core `p` meets tile `s`: rows
  `(16 p + s) · 2048 …` of the features and of the label column. At `s = 0` the two resident output blocks are reset to
  zero; at every point the one-hot matrix of the tile's labels, transposed, times the tile's feature rows is added into
  the [512, 1024] block, and the one-hot matrix's column sums into the [1, 512] block; the blocks are written back after
  `s = 15`. So block `p` of the first array ends at core `p`'s partial class sums and block `p` of the second at its
  partial class counts.
-/
import proofs.«406508_j53584011985262_3_alg».proof.Proof.Gen.KernelIdeal.Frame
import proofs.«406508_j53584011985262_3_alg».proof.Proof.Spec
import proofs.«406508_j53584011985262_3_alg».proof.Proof.Region0Body
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)
open scoped BigOperators

namespace Cert.KernelIdeal.R0

open Cert.KernelIdeal Cert.KernelIdeal.Gen

variable (V : (c : Dev nD) → (b : Ref sig .tc) → Buf (Elt Ideal) ((c : Thread nD τ).loc b))

/-- The feature array and the label column as the region finds them, and a point's blocks of them. -/
abbrev xarr (c : Dev nD) : Vec Ideal S65536x1024 .f32 := V c main_arg0
abbrev larr (c : Dev nD) : Vec Ideal S65536x1 .i32 := V c main_v0
abbrev xblk (c : Dev nD) (t : Fin cfg0.N) : Vec Ideal S2048x1024 .f32 := iblk0 V c 0 t
abbrev lblk (c : Dev nD) (t : Fin cfg0.N) : Vec Ideal S2048x1 .i32 := iblk0 V c 1 t

/-- The input windows' block indices: point `t` meets tile `t` of the rows, all the columns. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The feature block at point `t`, position `r`, column `d` is row `2048 t + r` of the features. -/
theorem xblk_apply (c : Dev nD) (t : Fin cfg0.N) (r : Fin 2048) (d : Fin 1024) (row : Fin 65536)
    (hrow : row.val = t.val * 2048 + r.val) : xblk V c t (ix2 r d) = xarr V c (ix2 row d) := by
  obtain ⟨e0, e1, -, -⟩ := idx_in t
  show ((cfg0.win 0).blk t).view.read (Elt Ideal) (V c (Pipeline.arrRef spec0 0)) (ix2 r d) = _
  rw [View.read_apply]
  show V c main_arg0 _ = V c main_arg0 _
  congr 1
  funext a
  apply Fin.ext
  match a with
  | ⟨0, _⟩ => show win0_0.index t (0 : Fin 2) * 2048 + 1 * r.val = row.val; rw [e0, hrow]; omega
  | ⟨1, _⟩ => show win0_0.index t (1 : Fin 2) * 1024 + 1 * d.val = d.val; rw [e1]; omega

/-- The label block at point `t`, position `r` is row `2048 t + r` of the label column. -/
theorem lblk_apply (c : Dev nD) (t : Fin cfg0.N) (r : Fin 2048) (row : Fin 65536)
    (hrow : row.val = t.val * 2048 + r.val) : lblk V c t (ix2 r (0 : Fin 1)) = larr V c (ix2 row (0 : Fin 1)) := by
  obtain ⟨-, -, e0, e1⟩ := idx_in t
  show ((cfg0.win 1).blk t).view.read (Elt Ideal) (V c (Pipeline.arrRef spec0 1)) (ix2 r (0 : Fin 1)) = _
  rw [View.read_apply]
  show V c main_v0 _ = V c main_v0 _
  congr 1
  funext a
  apply Fin.ext
  match a with
  | ⟨0, _⟩ => show win0_1.index t (0 : Fin 2) * 2048 + 1 * r.val = row.val; rw [e0, hrow]; omega
  | ⟨1, _⟩ => show win0_1.index t (1 : Fin 2) * 1 + 1 * 0 = 0; rw [e1]

/-- Tile `k`'s class sums and counts, as functions of every natural (zero past the grid). -/
def tS (c : Dev nD) (k : ℕ) : Vec Ideal S1x512x1024 .f32 :=
  if h : k < cfg0.N then tileSum (xblk V c ⟨k, h⟩) (lblk V c ⟨k, h⟩) else fun _ => 0
def tC (c : Dev nD) (k : ℕ) : Vec Ideal S1x1x512 .f32 :=
  if h : k < cfg0.N then tileCount (lblk V c ⟨k, h⟩) else fun _ => 0

theorem tS_of_lt (c : Dev nD) (k : ℕ) (h : k < cfg0.N) : tS V c k = tileSum (xblk V c ⟨k, h⟩) (lblk V c ⟨k, h⟩) := dif_pos h
theorem tC_of_lt (c : Dev nD) (k : ℕ) (h : k < cfg0.N) : tC V c k = tileCount (lblk V c ⟨k, h⟩) := dif_pos h

/-- At a core's first point the two blocks are left at that tile's sums and counts. -/
theorem outs_A (c : Dev nD) (t : Fin cfg0.N) (h0 : t.val % 16 = 0) :
    (outsAt0 V c t.val t.isLt).1 = tileSum (xblk V c t) (lblk V c t)
    ∧ (outsAt0 V c t.val t.isLt).2 = tileCount (lblk V c t) := by
  rw [outsAt0_A V c t h0]; dsimp only
  exact ⟨out_A_2 c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t),
    out_A_3 c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t)⟩

/-- At a later point they are left at what the point before left plus the tile's sums and counts. -/
theorem outs_B (c : Dev nD) (t : Fin cfg0.N) (h0 : ¬t.val % 16 = 0) :
    (outsAt0 V c t.val t.isLt).1
      = (fun j => (outsAt0 V c (t.val - 1) (Nat.lt_of_le_of_lt (Nat.sub_le _ _) t.isLt)).1 j + tileSum (xblk V c t) (lblk V c t) j)
    ∧ (outsAt0 V c t.val t.isLt).2
      = (fun j => (outsAt0 V c (t.val - 1) (Nat.lt_of_le_of_lt (Nat.sub_le _ _) t.isLt)).2 j + tileCount (lblk V c t) j) := by
  rw [outsAt0_B V c t h0]; dsimp only
  exact ⟨out_B_2 c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2,
    out_B_3 c (grid0.coords t) (ms0_0 t) (hs0_0 t) (ms0_1 t) (hs0_1 t) (ms0_2 t) (hs0_2 t) (ms0_3 t) (hs0_3 t)
      (fun h => h0 ((hcond0_0 t).mp h)) (iblk0 V c 0 t) (iblk0 V c 1 t)
      (outsAt0 V c (t.val - 1) (Nat.lt_of_le_of_lt (Nat.sub_le _ _) t.isLt)).1
      (outsAt0 V c (t.val - 1) (Nat.lt_of_le_of_lt (Nat.sub_le _ _) t.isLt)).2⟩

/-- THE FOLD. After point `n` the blocks hold the sums and counts of the tiles of the run `n - n % 16 … n`. -/
theorem outs_eq (c : Dev nD) : ∀ (n : ℕ) (h : n < cfg0.N),
    (∀ j, (outsAt0 V c n h).1 j = ∑ s ∈ Finset.range (n % 16 + 1), tS V c (n - n % 16 + s) j)
    ∧ (∀ j, (outsAt0 V c n h).2 j = ∑ s ∈ Finset.range (n % 16 + 1), tC V c (n - n % 16 + s) j)
  | 0, h => by
    obtain ⟨h1, h2⟩ := outs_A V c ⟨0, h⟩ rfl
    refine ⟨fun j => ?_, fun j => ?_⟩
    · show _ = ∑ s ∈ Finset.range 1, tS V c (0 + s) j
      rw [Finset.sum_range_one, tS_of_lt V c (0 + 0) h]
      exact congrFun h1 j
    · show _ = ∑ s ∈ Finset.range 1, tC V c (0 + s) j
      rw [Finset.sum_range_one, tC_of_lt V c (0 + 0) h]
      exact congrFun h2 j
  | n + 1, h => by
    by_cases h0 : (n + 1) % 16 = 0
    · obtain ⟨h1, h2⟩ := outs_A V c ⟨n + 1, h⟩ h0
      have e : n + 1 - 0 + 0 = n + 1 := by omega
      refine ⟨fun j => ?_, fun j => ?_⟩
      · rw [h0, Finset.sum_range_one, e, tS_of_lt V c (n + 1) h]
        exact congrFun h1 j
      · rw [h0, Finset.sum_range_one, e, tC_of_lt V c (n + 1) h]
        exact congrFun h2 j
    · obtain ⟨h1, h2⟩ := outs_B V c ⟨n + 1, h⟩ h0
      obtain ⟨i1, i2⟩ := outs_eq c n (Nat.lt_of_succ_lt h)
      have hm : (n + 1) % 16 = n % 16 + 1 := by omega
      have hb : n + 1 - (n % 16 + 1) = n - n % 16 := by omega
      have e : n - n % 16 + (n % 16 + 1) = n + 1 := by omega
      refine ⟨fun j => ?_, fun j => ?_⟩
      · rw [hm, hb, Finset.sum_range_succ, e, tS_of_lt V c (n + 1) h, ← i1 j]
        exact congrFun h1 j
      · rw [hm, hb, Finset.sum_range_succ, e, tC_of_lt V c (n + 1) h, ← i2 j]
        exact congrFun h2 j

/-- At a core's last point the sums block holds the core's partial class sums. -/
theorem sums_at (c : Dev nD) (n : ℕ) (h : n < cfg0.N) (h15 : n % 16 = 15) (p : Fin 2) (hp : p.val = n / 16)
    (cls : Fin 512) (d : Fin 1024) :
    (outsAt0 V c n h).1 (ix3 (0 : Fin 1) cls d) = Cert.Spec.partSum (xarr V c) (larr V c) (ix3 p cls d) := by
  have hN : n < 32 := lt_of_lt_of_eq h (show cfg0.N = 32 from N_0)
  have hb : n - 15 = 16 * p.val := by omega
  rw [(outs_eq V c n h).1, h15, hb]
  show ∑ s ∈ Finset.range 16, tS V c (16 * p.val + s) (ix3 (0 : Fin 1) cls d)
    = ∑ s : Fin 16, ∑ r : Fin 2048, Cert.Spec.hit (larr V c (ix2 (Cert.Spec.rowOf p s r) (0 : Fin 1))) cls
        * xarr V c (ix2 (Cert.Spec.rowOf p s r) d)
  rw [Finset.sum_range]
  refine Finset.sum_congr rfl fun s _ => ?_
  have hs : 16 * p.val + s.val < cfg0.N :=
    lt_of_lt_of_eq (by have := s.isLt; omega : 16 * p.val + s.val < 32) (show cfg0.N = 32 from N_0).symm
  rw [tS_of_lt V c _ hs]
  show ∑ r : Fin 2048, Cert.Spec.hit (lblk V c ⟨16 * p.val + s.val, hs⟩ (ix2 r (0 : Fin 1))) cls
      * xblk V c ⟨16 * p.val + s.val, hs⟩ (ix2 r d) = _
  refine Finset.sum_congr rfl fun r _ => ?_
  have hrow : (Cert.Spec.rowOf p s r).val = (⟨16 * p.val + s.val, hs⟩ : Fin cfg0.N).val * 2048 + r.val := by
    show (p.val * 16 + s.val) * 2048 + r.val = (16 * p.val + s.val) * 2048 + r.val
    omega
  rw [lblk_apply V c ⟨16 * p.val + s.val, hs⟩ r (Cert.Spec.rowOf p s r) hrow,
    xblk_apply V c ⟨16 * p.val + s.val, hs⟩ r d (Cert.Spec.rowOf p s r) hrow]

/-- At a core's last point the counts block holds the core's partial class counts. -/
theorem counts_at (c : Dev nD) (n : ℕ) (h : n < cfg0.N) (h15 : n % 16 = 15) (p : Fin 2) (hp : p.val = n / 16)
    (cls : Fin 512) :
    (outsAt0 V c n h).2 (ix3 (0 : Fin 1) (0 : Fin 1) cls) = Cert.Spec.partCount (larr V c) (ix3 p (0 : Fin 1) cls) := by
  have hN : n < 32 := lt_of_lt_of_eq h (show cfg0.N = 32 from N_0)
  have hb : n - 15 = 16 * p.val := by omega
  rw [(outs_eq V c n h).2, h15, hb]
  show ∑ s ∈ Finset.range 16, tC V c (16 * p.val + s) (ix3 (0 : Fin 1) (0 : Fin 1) cls)
    = ∑ s : Fin 16, ∑ r : Fin 2048, Cert.Spec.hit (larr V c (ix2 (Cert.Spec.rowOf p s r) (0 : Fin 1))) cls
  rw [Finset.sum_range]
  refine Finset.sum_congr rfl fun s _ => ?_
  have hs : 16 * p.val + s.val < cfg0.N :=
    lt_of_lt_of_eq (by have := s.isLt; omega : 16 * p.val + s.val < 32) (show cfg0.N = 32 from N_0).symm
  rw [tC_of_lt V c _ hs]
  show ∑ r : Fin 2048, Cert.Spec.hit (lblk V c ⟨16 * p.val + s.val, hs⟩ (ix2 r (0 : Fin 1))) cls = _
  refine Finset.sum_congr rfl fun r _ => ?_
  have hrow : (Cert.Spec.rowOf p s r).val = (⟨16 * p.val + s.val, hs⟩ : Fin cfg0.N).val * 2048 + r.val := by
    show (p.val * 16 + s.val) * 2048 + r.val = (16 * p.val + s.val) * 2048 + r.val
    omega
  rw [lblk_apply V c ⟨16 * p.val + s.val, hs⟩ r (Cert.Spec.rowOf p s r) hrow]

/-- The output windows' block indices: point `t` writes block `t / 16` on the leading axis, all of the other two. -/
theorem idx_out : ∀ t : Fin cfg0.N, win0_2.index t (0 : Fin 3) = t.val / 16 ∧ win0_2.index t (1 : Fin 3) = 0
    ∧ win0_2.index t (2 : Fin 3) = 0 ∧ win0_3.index t (0 : Fin 3) = t.val / 16 ∧ win0_3.index t (1 : Fin 3) = 0
    ∧ win0_3.index t (2 : Fin 3) = 0 :=
  (by decide +kernel : ∀ t : Fin grid0.N, _)

/-- What a core's last point writes back into the sums array is its block of the partial class sums. -/
theorem flushed2_eq (c : Dev nD) (t : Fin cfg0.N) (hf : (cfg0.win 2).flush t = true) :
    (dat0 V c).flushed 2 t
      = ((cfg0.win 2).blk t).view.read (Elt Ideal) (Cert.Spec.partSum (xarr V c) (larr V c)) := by
  have hN : t.val < 32 := lt_of_lt_of_eq t.isLt (show cfg0.N = 32 from N_0)
  have h15 : t.val % 16 = 15 := (flush0_2 t).mp hf
  obtain ⟨o0, o1, o2, -, -, -⟩ := idx_out t
  show (cfg0.win 2).cut (grid0.coords t) ((dat0 V c).after 2 t) = _
  rw [after0_2]
  funext y
  have e1 : (cfg0.win 2).xinj (grid0.coords t) y = ix3 (0 : Fin 1) (y 1 : Fin 512) (y 2 : Fin 1024) := by
    funext a; apply Fin.ext
    match a with
    | ⟨0, _⟩ => show (y 0).val = 0; have : (y 0).val < 1 := (y 0).isLt; omega
    | ⟨1, _⟩ => rfl
    | ⟨2, _⟩ => rfl
  have e2 : ((cfg0.win 2).blk t).view.emb y
      = ix3 (⟨t.val / 16, by omega⟩ : Fin 2) (y 1 : Fin 512) (y 2 : Fin 1024) := by
    funext a; apply Fin.ext
    match a with
    | ⟨0, _⟩ =>
      show win0_2.index t (0 : Fin 3) * 1 + 1 * (y 0).val = t.val / 16
      have : (y 0).val < 1 := (y 0).isLt
      rw [o0]; omega
    | ⟨1, _⟩ => show win0_2.index t (1 : Fin 3) * 512 + 1 * (y 1).val = (y 1).val; rw [o1]; omega
    | ⟨2, _⟩ => show win0_2.index t (2 : Fin 3) * 1024 + 1 * (y 2).val = (y 2).val; rw [o2]; omega
  show (outsAt0 V c t.val t.isLt).1 ((cfg0.win 2).xinj (grid0.coords t) y)
    = Cert.Spec.partSum (xarr V c) (larr V c) (((cfg0.win 2).blk t).view.emb y)
  rw [e1, e2]
  exact sums_at V c t.val t.isLt h15 ⟨t.val / 16, by omega⟩ rfl (y 1) (y 2)

/-- What a core's last point writes back into the counts array is its block of the partial class counts. -/
theorem flushed3_eq (c : Dev nD) (t : Fin cfg0.N) (hf : (cfg0.win 3).flush t = true) :
    (dat0 V c).flushed 3 t
      = ((cfg0.win 3).blk t).view.read (Elt Ideal) (Cert.Spec.partCount (larr V c)) := by
  have hN : t.val < 32 := lt_of_lt_of_eq t.isLt (show cfg0.N = 32 from N_0)
  have h15 : t.val % 16 = 15 := (flush0_3 t).mp hf
  obtain ⟨-, -, -, o0, o1, o2⟩ := idx_out t
  show (cfg0.win 3).cut (grid0.coords t) ((dat0 V c).after 3 t) = _
  rw [after0_3]
  funext y
  have e1 : (cfg0.win 3).xinj (grid0.coords t) y = ix3 (0 : Fin 1) (0 : Fin 1) (y 2 : Fin 512) := by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => rfl
  have e2 : ((cfg0.win 3).blk t).view.emb y
      = ix3 (⟨t.val / 16, by omega⟩ : Fin 2) (0 : Fin 1) (y 2 : Fin 512) := by
    funext a; apply Fin.ext
    match a with
    | ⟨0, _⟩ =>
      show win0_3.index t (0 : Fin 3) * 1 + 1 * (y 0).val = t.val / 16
      have : (y 0).val < 1 := (y 0).isLt
      rw [o0]; omega
    | ⟨1, _⟩ =>
      show win0_3.index t (1 : Fin 3) * 1 + 1 * (y 1).val = 0
      have : (y 1).val < 1 := (y 1).isLt
      rw [o1]; omega
    | ⟨2, _⟩ => show win0_3.index t (2 : Fin 3) * 512 + 1 * (y 2).val = (y 2).val; rw [o2]; omega
  show (outsAt0 V c t.val t.isLt).2 ((cfg0.win 3).xinj (grid0.coords t) y)
    = Cert.Spec.partCount (larr V c) (((cfg0.win 3).blk t).view.emb y)
  rw [e1, e2]
  exact counts_at V c t.val t.isLt h15 ⟨t.val / 16, by omega⟩ rfl (y 2)

/-- After the region the [2, 512, 1024] array holds the two cores' partial class sums of the entry contents. -/
theorem sums (c : Dev nD) : (dat0 V c).arrAt 2 cfg0.N
    = (Cert.Spec.partSum (V c main_arg0) (V c main_v0) : Buf (Elt Ideal) ((c : Thread nD τ).loc main_v1_0)) :=
  (dat0 V c).arrAt_eq_of_cover 2 (Cert.Spec.partSum (xarr V c) (larr V c)) (fun t hf => flushed2_eq V c t hf) fun i => by
    -- index (p, ·, ·) lies in the block core p writes back at its last point, 16 p + 15
    have hi0 : (i 0).val < 2 := (i 0).isLt
    have hi1 : (i 1).val < 512 := (i 1).isLt
    have hi2 : (i 2).val < 1024 := (i 2).isLt
    have ht : 16 * (i 0).val + 15 < cfg0.N :=
      lt_of_lt_of_eq (by omega : 16 * (i 0).val + 15 < 32) (show cfg0.N = 32 from N_0).symm
    obtain ⟨o0, o1, o2, -, -, -⟩ := idx_out ⟨16 * (i 0).val + 15, ht⟩
    have o0' : win0_2.index ⟨16 * (i 0).val + 15, ht⟩ (0 : Fin 3) = (16 * (i 0).val + 15) / 16 := o0
    refine ⟨⟨16 * (i 0).val + 15, ht⟩,
      (flush0_2 _).mpr (by show (16 * (i 0).val + 15) % 16 = 15; omega), ?_⟩
    show i ∈ ((View.whole main_v1_0).slice (win0_2.rect ⟨16 * (i 0).val + 15, ht⟩)).set
    rw [View.set_slice_whole, Rect.mem_set_unit]
    intro a
    match a with
    | ⟨0, _⟩ =>
      show win0_2.index ⟨16 * (i 0).val + 15, ht⟩ (0 : Fin 3) * 1 ≤ (i 0).val
        ∧ (i 0).val < win0_2.index ⟨16 * (i 0).val + 15, ht⟩ (0 : Fin 3) * 1 + 1
      rw [o0']; omega
    | ⟨1, _⟩ =>
      show win0_2.index ⟨16 * (i 0).val + 15, ht⟩ (1 : Fin 3) * 512 ≤ (i 1).val
        ∧ (i 1).val < win0_2.index ⟨16 * (i 0).val + 15, ht⟩ (1 : Fin 3) * 512 + 512
      rw [o1]; omega
    | ⟨2, _⟩ =>
      show win0_2.index ⟨16 * (i 0).val + 15, ht⟩ (2 : Fin 3) * 1024 ≤ (i 2).val
        ∧ (i 2).val < win0_2.index ⟨16 * (i 0).val + 15, ht⟩ (2 : Fin 3) * 1024 + 1024
      rw [o2]; omega

/-- After the region the [2, 1, 512] array holds the two cores' partial class counts. -/
theorem counts (c : Dev nD) : (dat0 V c).arrAt 3 cfg0.N
    = (Cert.Spec.partCount (V c main_v0) : Buf (Elt Ideal) ((c : Thread nD τ).loc main_v1_1)) :=
  (dat0 V c).arrAt_eq_of_cover 3 (Cert.Spec.partCount (larr V c)) (fun t hf => flushed3_eq V c t hf) fun i => by
    have hi0 : (i 0).val < 2 := (i 0).isLt
    have hi1 : (i 1).val < 1 := (i 1).isLt
    have hi2 : (i 2).val < 512 := (i 2).isLt
    have ht : 16 * (i 0).val + 15 < cfg0.N :=
      lt_of_lt_of_eq (by omega : 16 * (i 0).val + 15 < 32) (show cfg0.N = 32 from N_0).symm
    obtain ⟨-, -, -, o0, o1, o2⟩ := idx_out ⟨16 * (i 0).val + 15, ht⟩
    have o0' : win0_3.index ⟨16 * (i 0).val + 15, ht⟩ (0 : Fin 3) = (16 * (i 0).val + 15) / 16 := o0
    refine ⟨⟨16 * (i 0).val + 15, ht⟩,
      (flush0_3 _).mpr (by show (16 * (i 0).val + 15) % 16 = 15; omega), ?_⟩
    show i ∈ ((View.whole main_v1_1).slice (win0_3.rect ⟨16 * (i 0).val + 15, ht⟩)).set
    rw [View.set_slice_whole, Rect.mem_set_unit]
    intro a
    match a with
    | ⟨0, _⟩ =>
      show win0_3.index ⟨16 * (i 0).val + 15, ht⟩ (0 : Fin 3) * 1 ≤ (i 0).val
        ∧ (i 0).val < win0_3.index ⟨16 * (i 0).val + 15, ht⟩ (0 : Fin 3) * 1 + 1
      rw [o0']; omega
    | ⟨1, _⟩ =>
      show win0_3.index ⟨16 * (i 0).val + 15, ht⟩ (1 : Fin 3) * 1 ≤ (i 1).val
        ∧ (i 1).val < win0_3.index ⟨16 * (i 0).val + 15, ht⟩ (1 : Fin 3) * 1 + 1
      rw [o1]; omega
    | ⟨2, _⟩ =>
      show win0_3.index ⟨16 * (i 0).val + 15, ht⟩ (2 : Fin 3) * 512 ≤ (i 2).val
        ∧ (i 2).val < win0_3.index ⟨16 * (i 0).val + 15, ht⟩ (2 : Fin 3) * 512 + 512
      rw [o2]; omega

end Cert.KernelIdeal.R0

end
-- ==== Proof.Region1.lean ====
/-
  What the second kernel leaves in its result array. Grid point `t` meets rows `2048 t …` of the targets, the whole
  [512, 1024] means and the whole [1, 512] row of per-class factors, and stores, at row `r` and class `c`,
  `(∑_d T r d · M c d) · ((1 / max (√(∑_d T r d · T r d)) ε) · 50) · iv c`; block `t` of the output is written back
  after every point, and the blocks tile the array.
-/
import proofs.«406508_j53584011985262_3_alg».proof.Proof.Gen.KernelIdeal.Frame
import proofs.«406508_j53584011985262_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.SL.Sem
open Idealize.ShloMosaic.Pipeline (Dat)

namespace Cert.KernelIdeal.R1

open Cert.KernelIdeal Cert.KernelIdeal.Gen Cert.Spec

variable (V : (c : Dev nD) → (b : Ref sig .tc) → Buf (Elt Ideal) ((c : Thread nD τ).loc b))

/-! ## The layout operations of the body, read at an index -/

/-- A [2048] vector cast to a [2048, 1] column reads, at (r, u), the vector at r. -/
theorem column_apply {α : Type} (v : S2048.Idx → α) (r : Fin 2048) (u : Fin 1) :
    shapeCast S2048x1 v shapeCasts_S2048_S2048x1 (ix2 r u) = v (ix1 r) :=
  shapeCast_apply v shapeCasts_S2048_S2048x1 _ _ (by
    have hu : u.val = 0 := by omega
    rw [Shape.rowMajor_val_one, Shape.rowMajor_val_two]
    show r.val = r.val * 1 + u.val
    rw [hu, Nat.mul_one, Nat.add_zero])

/-- A [2048, 1] column broadcast along the classes reads, at (r, c), the column at r. -/
theorem alongClasses_apply {α : Type} (v : S2048x1.Idx → α) (r : Fin 2048) (c : Fin 512) :
    broadcastTo S2048x512 v broadcasts_S2048x1_S2048x512 (ix2 r c) = v (ix2 r (0 : Fin 1)) := by
  refine broadcastTo_apply v broadcasts_S2048x1_S2048x512 (ix2 r c) (ix2 r (0 : Fin 1)) fun ax => ?_
  match ax with
  | ⟨0, _⟩ => rfl
  | ⟨1, _⟩ => rfl

/-- A [1, 512] row broadcast along the rows reads, at (r, c), the row at c. -/
theorem alongRows_apply {α : Type} (v : S1x512.Idx → α) (r : Fin 2048) (c : Fin 512) :
    broadcastTo S2048x512 v broadcasts_S1x512_S2048x512 (ix2 r c) = v (ix2 (0 : Fin 1) c) :=
  broadcastTo_1b_ab_apply v broadcasts_S1x512_S2048x512 r c

/-- The lane sum of a [2048, 1024] block at row r is the sum over the row. -/
theorem laneSum_apply (src : FVec Ideal S2048x1024 .f32) (hφ : FKind.Formats .f32)
    (hacc : (0x00000000#32 : BitVec 32) = 0x00000000#32) (r : Fin 2048) :
    multiReduction (F := Ideal) .add [1] S2048 src 0x00000000#32 reduces_S2048x1024_S2048 hφ hacc (ix1 r)
      = ∑ d : Fin 1024, src (ix2 r d) := by
  refine (Ideal.multiReduction_add_single src 0x00000000#32 reduces_S2048x1024_S2048 hφ hacc (ix1 r)).trans ?_
  refine Finset.sum_congr rfl fun d _ => congrArg src (funext fun a => ?_)
  match a with
  | ⟨0, _⟩ => rfl
  | ⟨1, _⟩ => rfl

/-! The matrix product: both operands contract their axis 1; the output's row indexes the left operand, its column the right. -/

theorem lhs_axis0 (i : S2048x512.Idx) (q : dot_S2048x1024_S512x1024_S2048x512_1_1_0_0_n_n.contr.Idx) :
    (dot_S2048x1024_S512x1024_S2048x512_1_1_0_0_n_n.lhsIdx i q 0).val = (i 0).val := by
  unfold DotDims.lhsIdx
  rw [dif_neg (show ¬(0 : Fin S2048x1024.rank) ∈ dot_S2048x1024_S512x1024_S2048x512_1_1_0_0_n_n.lhsBatch by decide), dif_pos (show (0 : Fin S2048x1024.rank) ∈ dot_S2048x1024_S512x1024_S2048x512_1_1_0_0_n_n.lhsNonContracting by decide)]
  rfl
theorem lhs_axis1 (i : S2048x512.Idx) (q : dot_S2048x1024_S512x1024_S2048x512_1_1_0_0_n_n.contr.Idx) :
    (dot_S2048x1024_S512x1024_S2048x512_1_1_0_0_n_n.lhsIdx i q 1).val = (q ⟨0, by decide⟩).val :=
  dot_S2048x1024_S512x1024_S2048x512_1_1_0_0_n_n.lhsIdx_val_of_single rfl i q
theorem rhs_axis0 (i : S2048x512.Idx) (q : dot_S2048x1024_S512x1024_S2048x512_1_1_0_0_n_n.contr.Idx) :
    (dot_S2048x1024_S512x1024_S2048x512_1_1_0_0_n_n.rhsIdx i q 0).val = (i 1).val := by
  unfold DotDims.rhsIdx
  rw [dif_neg (show ¬(0 : Fin S512x1024.rank) ∈ dot_S2048x1024_S512x1024_S2048x512_1_1_0_0_n_n.rhsBatch by decide), dif_pos (show (0 : Fin S512x1024.rank) ∈ dot_S2048x1024_S512x1024_S2048x512_1_1_0_0_n_n.rhsNonContracting by decide)]
  rfl
theorem rhs_axis1 (i : S2048x512.Idx) (q : dot_S2048x1024_S512x1024_S2048x512_1_1_0_0_n_n.contr.Idx) :
    (dot_S2048x1024_S512x1024_S2048x512_1_1_0_0_n_n.rhsIdx i q 1).val = (q ⟨0, by decide⟩).val :=
  dot_S2048x1024_S512x1024_S2048x512_1_1_0_0_n_n.rhsIdx_val_of_single rfl i q

/-- The product into the zero accumulator at (r, c) is the inner product of row r of the left operand with row c of the right. -/
theorem product_apply (a : FVec Ideal S2048x1024 .bf16) (b : FVec Ideal S512x1024 .bf16) (r : Fin 2048) (c : Fin 512) :
    FloatOps.matmul dot_S2048x1024_S512x1024_S2048x512_1_1_0_0_n_n none a b (constant (F := Ideal) S2048x512 .f32 0x00000000#32) (ix2 r c)
      = ∑ d : Fin 1024, a (ix2 r d) * b (ix2 c d) := by
  rw [Ideal.matmul_constant_zero_apply, ← Equiv.sum_comp (ValueIdx.contrEquiv1 dot_S2048x1024_S512x1024_S2048x512_1_1_0_0_n_n 1024 rfl rfl).symm]
  refine Finset.sum_congr rfl fun k _ => ?_
  have hk := ValueIdx.contrEquiv1_symm_val dot_S2048x1024_S512x1024_S2048x512_1_1_0_0_n_n 1024 rfl rfl k
  have el : dot_S2048x1024_S512x1024_S2048x512_1_1_0_0_n_n.lhsIdx (ix2 r c) ((ValueIdx.contrEquiv1 dot_S2048x1024_S512x1024_S2048x512_1_1_0_0_n_n 1024 rfl rfl).symm k) = ix2 r k := funext fun ax => Fin.ext (by
    match ax with
    | ⟨0, _⟩ => exact lhs_axis0 _ _
    | ⟨1, _⟩ => exact (lhs_axis1 _ _).trans hk)
  have er : dot_S2048x1024_S512x1024_S2048x512_1_1_0_0_n_n.rhsIdx (ix2 r c) ((ValueIdx.contrEquiv1 dot_S2048x1024_S512x1024_S2048x512_1_1_0_0_n_n 1024 rfl rfl).symm k) = ix2 c k := funext fun ax => Fin.ext (by
    match ax with
    | ⟨0, _⟩ => exact rhs_axis0 _ _
    | ⟨1, _⟩ => exact (rhs_axis1 _ _).trans hk)
  rw [el, er]

/-- The body's stored value at row r and class c. -/
theorem pay_apply (x0 : Vec Ideal S2048x1024 .f32) (x1 : Vec Ideal S512x1024 .bf16) (x2 : Vec Ideal S1x512 .f32)
    (r : Fin 2048) (c : Fin 512) :
    k1_pay1 x0 x1 x2 (ix2 r c)
      = (∑ d : Fin 1024, x0 (ix2 r d) * x1 (ix2 c d))
        * (Ideal.div oneW (max (Ideal.sqrt (∑ d : Fin 1024, x0 (ix2 r d) * x0 (ix2 r d))) epsW) * fiftyW)
        * x2 (ix2 (0 : Fin 1) c) := by
  unfold k1_pay1
  dsimp only
  rw [mulf_apply, mulf_apply, alongRows_apply, alongClasses_apply, shapeCast_self x2]
  refine congrArg₂ (· * ·) (congrArg₂ (· * ·) ?_ ?_) rfl
  · refine (product_apply _ _ r c).trans ?_
    rw [shapeCast_self x1]
    rfl
  · show Ideal.div oneW (max (Ideal.sqrt (shapeCast S2048x1 _ shapeCasts_S2048_S2048x1 (ix2 r (0 : Fin 1)))) epsW) * fiftyW = _
    rw [column_apply]
    refine congrArg (fun z => Ideal.div oneW (max (Ideal.sqrt z) epsW) * fiftyW) ?_
    exact (laneSum_apply _ _ _ r).trans (Finset.sum_congr rfl fun d _ => rfl)

/-! ## What each grid point writes back -/

theorem zeroOffsets : (![0, 0] : Fin 2 → Nat) = fun _ => 0 := funext fun a => by fin_cases a <;> rfl

/-- The printed index maps over the grid: the targets' and the output's blocks are the point's, the means and the factors are whole. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value at (r, c), when row r of the first block is row n of the targets and the other two
    blocks are the means and the factors, is the kernel's logit at (n, c). -/
theorem point_value (T : (⟨2, ![65536, 1024]⟩ : Shape).Idx → EReal) (Mb : (⟨2, ![512, 1024]⟩ : Shape).Idx → EReal)
    (iv : (⟨2, ![1, 512]⟩ : Shape).Idx → EReal)
    (x0 : Vec Ideal S2048x1024 .f32) (x1 : Vec Ideal S512x1024 .bf16) (x2 : Vec Ideal S1x512 .f32)
    (r : Fin 2048) (c : Fin 512) (n : Fin 65536)
    (h0 : ∀ d : Fin 1024, x0 (ix2 r d) = T (ix2 n d))
    (h1 : ∀ d : Fin 1024, x1 (ix2 c d) = Mb (ix2 c d))
    (h2 : x2 (ix2 (0 : Fin 1) c) = iv (ix2 (0 : Fin 1) c)) :
    k1_pay1 x0 x1 x2 (ix2 r c) = kLogits T Mb iv (ix2 n c) := by
  show _ = (∑ d : Fin 1024, T (ix2 n d) * Mb (ix2 c d))
      * (Ideal.div oneW (max (Ideal.sqrt (∑ d : Fin 1024, T (ix2 n d) * T (ix2 n d))) epsW) * fiftyW)
      * iv (ix2 (0 : Fin 1) c)
  rw [pay_apply, h2]
  simp only [h0, h1]

/-- Row r of the targets' block at point t is row 2048 t + r of the targets. -/
theorem targets_block (c : Dev nD) (t : Fin cfg1.N) (r : Fin 2048) (d : Fin 1024) (n : Fin 65536)
    (hn : n.val = t.val * 2048 + r.val) :
    (iblk1 V c 0 t : Vec Ideal S2048x1024 .f32) (ix2 r d) = (V c main_arg2 : S65536x1024.Idx → EReal) (ix2 n d) := by
  obtain ⟨e00, e01, -⟩ := index_facts t
  unfold iblk1
  rw [View.read_apply]
  show V c main_arg2 _ = V c main_arg2 _
  congr 1
  funext a
  apply Fin.ext
  match a with
  | ⟨0, _⟩ => show win1_0.index t (0 : Fin 2) * 2048 + 1 * r.val = n.val; rw [e00, hn]; omega
  | ⟨1, _⟩ => show win1_0.index t (1 : Fin 2) * 1024 + 1 * d.val = d.val; rw [e01]; omega

/-- The means' block at every point is the whole array of means. -/
theorem means_block (c : Dev nD) (t : Fin cfg1.N) (k : Fin 512) (d : Fin 1024) :
    (iblk1 V c 1 t : Vec Ideal S512x1024 .bf16) (ix2 k d) = (V c main_v23 : S512x1024.Idx → EReal) (ix2 k d) := by
  obtain ⟨-, -, e10, e11, -⟩ := index_facts t
  unfold iblk1
  rw [View.read_apply]
  show V c main_v23 _ = V c main_v23 _
  congr 1
  funext a
  apply Fin.ext
  match a with
  | ⟨0, _⟩ => show win1_1.index t (0 : Fin 2) * 512 + 1 * k.val = k.val; rw [e10]; omega
  | ⟨1, _⟩ => show win1_1.index t (1 : Fin 2) * 1024 + 1 * d.val = d.val; rw [e11]; omega

/-- The factors' block at every point is the whole row of factors. -/
theorem factors_block (c : Dev nD) (t : Fin cfg1.N) (u : Fin 1) (k : Fin 512) :
    (iblk1 V c 2 t : Vec Ideal S1x512 .f32) (ix2 u k) = (V c main_v22 : S1x512.Idx → EReal) (ix2 u k) := by
  obtain ⟨-, -, -, -, e20, e21, -⟩ := index_facts t
  unfold iblk1
  rw [View.read_apply]
  show V c main_v22 _ = V c main_v22 _
  congr 1
  funext a
  apply Fin.ext
  match a with
  | ⟨0, _⟩ => show win1_2.index t (0 : Fin 2) * 1 + 1 * u.val = u.val; rw [e20]; omega
  | ⟨1, _⟩ => show win1_2.index t (1 : Fin 2) * 512 + 1 * k.val = k.val; rw [e21]; omega

/-- What point t writes back is block t of the kernel's logits of the entry contents. -/
theorem flushed_eq (c : Dev nD) (t : Fin cfg1.N) :
    (dat1 V c).flushed 3 t = ((cfg1.win 3).blk t).view.read (Elt Ideal)
      (kLogits (V c main_arg2) (V c main_v23) (V c main_v22) : Buf (Elt Ideal) ((c : Thread nD τ).loc main_v24)) := by
  show (cfg1.win 3).cut (grid1.coords t) ((dat1 V c).after 3 t) = _
  rw [after1_3]
  unfold out1_3
  rw [View.canon_unit_zero zeroOffsets]
  simp only [View.ld_unit_zero (S := S2048x1024) zeroOffsets, View.ld_unit_zero (S := S512x1024) zeroOffsets, View.ld_unit_zero (S := S1x512) zeroOffsets]
  funext j
  obtain ⟨r, k, rfl⟩ : ∃ (r : Fin 2048) (k : Fin 512), j = ix2 r k := ⟨j 0, j 1, eq_ix2 j⟩
  obtain ⟨-, -, -, -, -, -, e30, e31⟩ := index_facts t
  have hN : t.val < 32 := lt_of_lt_of_eq t.isLt N_1
  have ei : ((cfg1.win 3).blk t).view.emb (ix2 r k)
      = (ix2 (⟨t.val * 2048 + r.val, by omega⟩ : Fin 65536) k : S65536x512.Idx) := by
    funext a
    apply Fin.ext
    match a with
    | ⟨0, _⟩ => show win1_3.index t (0 : Fin 2) * 2048 + 1 * r.val = t.val * 2048 + r.val; rw [e30]; omega
    | ⟨1, _⟩ => show win1_3.index t (1 : Fin 2) * 512 + 1 * k.val = k.val; rw [e31]; omega
  show k1_pay1 (iblk1 V c 0 t) (iblk1 V c 1 t) (iblk1 V c 2 t) (ix2 r k)
    = kLogits (V c main_arg2) (V c main_v23) (V c main_v22) (((cfg1.win 3).blk t).view.emb (ix2 r k))
  rw [ei]
  exact point_value _ _ _ _ _ _ r k _ (fun d => targets_block V c t r d _ rfl) (fun d => means_block V c t k d)
    (factors_block V c t 0 k)

/-! ## The blocks tile the array -/

/-- An index of the array is in point t's block iff each coordinate is in the block's range on its axis. -/
theorem mem_block (t : Fin cfg1.N) (i : S65536x512.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v24).slice (win1_3.rect t)).set ↔ _
  rw [View.set_slice_whole, Rect.mem_set_unit]
  exact Iff.rfl

/-- Row n of the array lies in the block of point n / 2048, which is written back. -/
theorem covered (i : S65536x512.Idx) :
    ∃ t : Fin cfg1.N, (cfg1.win 3).flush t = true ∧ i ∈ ((cfg1.win 3).blk t).view.set := by
  have hi0 : (i 0).val < 65536 := (i 0).isLt
  have hi1 : (i 1).val < 512 := (i 1).isLt
  have hN : cfg1.N = 32 := N_1
  have ht : (i 0).val / 2048 < cfg1.N := by rw [hN]; omega
  obtain ⟨-, -, -, -, -, -, e30, e31⟩ := index_facts ⟨(i 0).val / 2048, ht⟩
  refine ⟨⟨(i 0).val / 2048, ht⟩, flush1_3 _, ?_⟩
  rw [mem_block]
  intro a
  match a with
  | ⟨0, _⟩ =>
    show win1_3.index ⟨(i 0).val / 2048, ht⟩ (0 : Fin 2) * 2048 ≤ (i 0).val
      ∧ (i 0).val < win1_3.index ⟨(i 0).val / 2048, ht⟩ (0 : Fin 2) * 2048 + 2048
    rw [e30]
    show (i 0).val / 2048 * 2048 ≤ (i 0).val ∧ (i 0).val < (i 0).val / 2048 * 2048 + 2048
    omega
  | ⟨1, _⟩ =>
    show win1_3.index ⟨(i 0).val / 2048, ht⟩ (1 : Fin 2) * 512 ≤ (i 1).val
      ∧ (i 1).val < win1_3.index ⟨(i 0).val / 2048, ht⟩ (1 : Fin 2) * 512 + 512
    rw [e31]
    omega

/-- After the region the [65536, 512] array holds the kernel's logits of the entry contents. -/
theorem logits (c : Dev nD) : (dat1 V c).arrAt 3 cfg1.N
    = (Cert.Spec.kLogits (V c main_arg2) (V c main_v23) (V c main_v22) : Buf (Elt Ideal) ((c : Thread nD τ).loc main_v24)) :=
  (dat1 V c).arrAt_eq_of_cover 3 _ (fun t _ => flushed_eq V c t) covered

end Cert.KernelIdeal.R1
end
-- ==== Proof.HostGlue.lean ====
/-
  The host operations of the kernel program, read at the segment boundaries. Before the first kernel the labels are
  reshaped to a column. Between the kernels the two cores' partial sums and counts are added, the sums divided by
  `max count 1` (the class means), each class's norm `max (√(0 + ∑_d M c d · M c d)) ε` inverted, and the means
  converted to bf16 — the identity on extended reals. No host operation writes an argument.
-/
import proofs.«406508_j53584011985262_3_alg».proof.Proof.Gen.KernelIdeal.Frame
import proofs.«406508_j53584011985262_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-- The first kernel finds the features as launched. -/
theorem entry0_features (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- A vector reshaped to a one-column matrix: entry `(n, 0)` is entry `n`. -/
theorem col_apply {α : Type} {n : Nat} (v : (⟨1, ![n]⟩ : Shape).Idx → α) (h : (⟨1, ![n]⟩ : Shape).ShapeCasts ⟨2, ![n, 1]⟩)
    (i : (⟨2, ![n, 1]⟩ : Shape).Idx) : shapeCast ⟨2, ![n, 1]⟩ v h i = v (ix1 (i 0)) := by
  have hi : (i 1).val < 1 := idx2_lt1 i
  refine shapeCast_apply v h i (ix1 (i 0)) ?_
  rw [Shape.rowMajor_val_one, Shape.rowMajor_val_two]
  show (i 0).val = (i 0).val * 1 + (i 1).val
  omega

/-- The first kernel finds the labels as a column: entry `(n, 0)` is label `n`. -/
theorem entry0_labels (c : Dev nD) :
    V1 m ρ c main_v0 = (fun i => m ((c : Thread nD τ).loc main_arg1) (ix1 (i 0)) : (⟨2, ![65536, 1]⟩ : Shape).Idx → BitVec 32) := by
  show StableHlo.after hostOps0 (W0 m ρ c) (Proc.devRef .tc main_v0) = _
  simp only [hostOps0]
  after_results
  exact funext fun i => col_apply (n := 65536) (m ((c : Thread nD τ).loc main_arg1)) shapeCasts_S65536_S65536x1 i

/-- The second kernel finds the targets as launched. -/
theorem entry1_targets (c : Dev nD) : V5 m ρ c main_arg2 = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg2) := StableHlo.after_of_forall_not_mem (b := Proc.devRef .tc main_arg2) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- One of the two halves of a `[2, a, b]` array, read as an `[a, b]` array: entry `(r, d)` is entry `(o, r, d)`. -/
theorem half_apply {α : Type} {a b : Nat} (o : Nat) (ho : o < 2) (x : (⟨3, ![2, a, b]⟩ : Shape).Idx → α)
    (hs : (⟨3, ![2, a, b]⟩ : Shape).Slices ![o, 0, 0] ⟨3, ![1, a, b]⟩)
    (hc : (⟨3, ![1, a, b]⟩ : Shape).ShapeCasts ⟨2, ![a, b]⟩) (i : (⟨2, ![a, b]⟩ : Shape).Idx) :
    shapeCast ⟨2, ![a, b]⟩ (extractStridedSlice ⟨3, ![1, a, b]⟩ ![o, 0, 0] x hs) hc i = x (ix3 ⟨o, ho⟩ (i 0) (i 1)) := by
  refine (shapeCast_dropUnit_apply ![a, b] _ hc i).trans ?_
  refine extractStridedSlice_apply _ x hs _ (ix3 ⟨o, ho⟩ (i 0) (i 1)) fun d => ?_
  match d with
  | ⟨0, _⟩ => exact rfl
  | ⟨1, _⟩ => exact (Nat.zero_add _).symm
  | ⟨2, _⟩ => exact (Nat.zero_add _).symm

/-- A row turned into a column: entry `(r, 0)` is entry `(0, r)`. -/
theorem row_to_col_apply {α : Type} {n : Nat} (y : (⟨2, ![1, n]⟩ : Shape).Idx → α)
    (h : (⟨2, ![1, n]⟩ : Shape).Transposes [1, 0] ⟨2, ![n, 1]⟩) (j : (⟨2, ![n, 1]⟩ : Shape).Idx) :
    transpose ⟨2, ![n, 1]⟩ [1, 0] y h j = y (ix2 (j 1) (j 0)) :=
  transpose_apply [1, 0] y h j (ix2 (j 1) (j 0)) fun b => match b with | ⟨0, _⟩ => rfl | ⟨1, _⟩ => rfl

/-- A column of 512 entries spread along 1024 columns: entry `(r, d)` is entry `(r, 0)`. -/
theorem col_spread_apply {α : Type} (y : (⟨2, ![512, 1]⟩ : Shape).Idx → α)
    (h : (⟨2, ![512, 1]⟩ : Shape).BroadcastsInDim ⟨2, ![512, 1024]⟩ ![0, 1]) (j : (⟨2, ![512, 1024]⟩ : Shape).Idx) :
    broadcastInDim ⟨2, ![512, 1024]⟩ ![0, 1] h y j = y (ix2 (j 0) (0 : Fin 1)) :=
  broadcastInDim_apply ![0, 1] h y j (ix2 (j 0) (0 : Fin 1)) fun a => match a with | ⟨0, _⟩ => rfl | ⟨1, _⟩ => rfl

/-- The host's arithmetic between the kernels, as one function of the first kernel's two result arrays: the class means. -/
theorem mean_term (S2 : (⟨3, ![2, 512, 1024]⟩ : Shape).Idx → EReal) (C2 : (⟨3, ![2, 1, 512]⟩ : Shape).Idx → EReal) :
    Host.divf (F := Ideal) (φ := .f32)
      (addf
        (fun i => shapeCast S512x1024 (extractStridedSlice S1x512x1024 ![0, 0, 0] S2 slices_S2x512x1024_S1x512x1024_0_0_0) shapeCasts_S1x512x1024_S512x1024 i)
        (fun i => shapeCast S512x1024 (extractStridedSlice S1x512x1024 ![1, 0, 0] S2 slices_S2x512x1024_S1x512x1024_1_0_0) shapeCasts_S1x512x1024_S512x1024 i))
      (broadcastInDim (s := S512x1) S512x1024 ![0, 1] bcast_S512x1_S512x1024_0_1
        (maximumf
          (transpose S512x1 [1, 0]
            (addf
              (fun i => shapeCast S1x512 (extractStridedSlice S1x1x512 ![0, 0, 0] C2 slices_S2x1x512_S1x1x512_0_0_0) shapeCasts_S1x1x512_S1x512 i)
              (fun i => shapeCast S1x512 (extractStridedSlice S1x1x512 ![1, 0, 0] C2 slices_S2x1x512_S1x1x512_1_0_0) shapeCasts_S1x1x512_S1x512 i))
            transposes_S1x512_S512x1_1_0)
          (broadcastInDim (s := S_) S512x1 ![] bcast_S_S512x1 (constant (F := Ideal) S_ .f32 0x3F800000#32))))
      = Cert.Spec.kMean S2 C2 := by
  funext i
  show Ideal.div (_ + _) (broadcastInDim (s := S512x1) S512x1024 ![0, 1] bcast_S512x1_S512x1024_0_1 _ i) = _
  rw [col_spread_apply]
  show Ideal.div (_ + _) (max (transpose S512x1 [1, 0] _ transposes_S1x512_S512x1_1_0 _) _) = _
  rw [row_to_col_apply]
  show Ideal.div (shapeCast S512x1024 _ _ i + shapeCast S512x1024 _ _ i) (max (shapeCast S1x512 _ _ _ + shapeCast S1x512 _ _ _) _) = _
  rw [half_apply 0 (by decide) S2, half_apply 1 (by decide) S2, half_apply 0 (by decide) C2, half_apply 1 (by decide) C2]
  rfl

/-- After the first stretch of host operations the buffer of the means holds the class means of the first kernel's
    two result arrays. -/
theorem w3_v16 (c : Dev nD) : W3 m ρ c (Proc.devRef .tc main_v16) = (Cert.Spec.kMean (V2 m ρ c main_v1_0) (V2 m ρ c main_v1_1) : (⟨2, ![512, 1024]⟩ : Shape).Idx → EReal) := by
  show StableHlo.after hostOps1 (W2 m ρ c) (Proc.devRef .tc main_v16) = _
  simp only [hostOps1]
  after_results
  exact mean_term (V2 m ρ c main_v1_0) (V2 m ρ c main_v1_1)

/-- A vector of `n` entries as a one-row matrix: entry `(0, r)` is entry `r`. -/
theorem row_apply {α : Type} {n : Nat} (v : (⟨1, ![n]⟩ : Shape).Idx → α) (h : (⟨1, ![n]⟩ : Shape).ShapeCasts ⟨2, ![1, n]⟩)
    (j : (⟨2, ![1, n]⟩ : Shape).Idx) : shapeCast ⟨2, ![1, n]⟩ v h j = v (ix1 (j 1)) := by
  refine (shapeCast_addUnit_apply ![n] v h j).trans (congrArg v ?_)
  funext a
  match a with
  | ⟨0, _⟩ => rfl

/-- The rows' root sums of squares: `√(∑_d M r d · M r d)`. -/
def rootSq (M : (⟨2, ![512, 1024]⟩ : Shape).Idx → EReal) : (⟨1, ![512]⟩ : Shape).Idx → EReal :=
  fun j => Ideal.sqrt (∑ d : Fin 1024, M (ix2 (j 0) d) * M (ix2 (j 0) d))

/-- The reciprocals of a vector's entries kept away from zero, as a row: entry `(0, r)` is `1 / max (N r) ε`. -/
def invRow (N : (⟨1, ![512]⟩ : Shape).Idx → EReal) : (⟨2, ![1, 512]⟩ : Shape).Idx → EReal :=
  fun i => Ideal.div Cert.Spec.oneW (max (N (ix1 (i 1))) Cert.Spec.epsW)

/-- The reciprocal class norms are the two composed. -/
theorem kInvNorm_eq (M : (⟨2, ![512, 1024]⟩ : Shape).Idx → EReal) : Cert.Spec.kInvNorm M = invRow (rootSq M) := rfl

/-- The rows' root sums of squares, as the host computes them: `√(0 + ∑_d M r d · M r d)`. -/
theorem norm_term (M : (⟨2, ![512, 1024]⟩ : Shape).Idx → EReal) :
    Host.sqrt (F := Ideal) (φ := .f32)
        (Host.reduceAdd (mulf (F := Ideal) (s := S512x1024) (φ := .f32) M M) (constant (F := Ideal) S_ .f32 0x00000000#32) reducesTo_S512x1024_S512_d1 h_S_)
      = rootSq M := by
  have h : S512x1024.Reduces [1] S512 := by decide
  funext j
  show Ideal.sqrt (Ideal.hostReduceAdd reducesTo_S512x1024_S512_d1 (mulf (F := Ideal) (s := S512x1024) (φ := .f32) M M) (Ideal.ofBits .f32 0x00000000#32) j) = _
  rw [Ideal.hostReduceAdd_single reducesTo_S512x1024_S512_d1 h, Ideal.ofBits_zero_f32, zero_add]
  refine congrArg Ideal.sqrt ?_
  show (∑ d : Fin 1024, M (h.lift j d) * M (h.lift j d)) = _
  refine Finset.sum_congr rfl fun d _ => ?_
  have e : h.lift j d = ix2 (j 0) d := by
    funext a
    match a with
    | ⟨0, _⟩ => exact Fin.ext rfl
    | ⟨1, _⟩ => exact Fin.ext rfl
  exact congrArg (fun k => M k * M k) e

/-- The second stretch of host operations, over any contents: the norms' buffer holds the rows' root sums of squares
    of the means' buffer. -/
theorem norm_ops (W : Valuation τ sig (Elt Ideal)) :
    StableHlo.after hostOps1_1 W (Proc.devRef .tc main_v17) = rootSq (W (Proc.devRef .tc main_v16)) := by
  simp only [hostOps1_1]
  after_results
  exact norm_term (W (Proc.devRef .tc main_v16))

/-- The reciprocal of each norm kept away from zero, laid out as a row, as the host computes it. -/
theorem inv_term (N : (⟨1, ![512]⟩ : Shape).Idx → EReal) :
    (fun i => shapeCast S1x512
        (Host.divf (F := Ideal) (φ := .f32)
          (broadcastInDim (s := S_) S512 ![] bcast_S_S512 (constant (F := Ideal) S_ .f32 0x3F800000#32))
          (maximumf (F := Ideal) (φ := .f32) N (broadcastInDim (s := S_) S512 ![] bcast_S_S512 (constant (F := Ideal) S_ .f32 0x0DA24260#32))))
        shapeCasts_S512_S1x512 i)
      = invRow N := by
  funext i
  rw [row_apply]
  rfl

/-- The third stretch of host operations, over any contents: the factors' buffer holds the reciprocals of the norms'
    buffer kept away from zero. -/
theorem inv_ops (W : Valuation τ sig (Elt Ideal)) :
    StableHlo.after hostOps1_2 W (Proc.devRef .tc main_v22) = invRow (W (Proc.devRef .tc main_v17)) := by
  simp only [hostOps1_2]
  after_results
  exact inv_term (W (Proc.devRef .tc main_v17))

/-- The third stretch of host operations, over any contents: the bf16 means' buffer holds the means' buffer (the
    conversion is the identity on extended reals). -/
theorem bf16_ops (W : Valuation τ sig (Elt Ideal)) :
    (StableHlo.after hostOps1_2 W (Proc.devRef .tc main_v23) : (⟨2, ![512, 1024]⟩ : Shape).Idx → EReal)
      = W (Proc.devRef .tc main_v16) := by
  simp only [hostOps1_2]
  after_results
  rfl

/-- The second stretch does not write the means' buffer. -/
theorem w4_v16 (c : Dev nD) : W4 m ρ c (Proc.devRef .tc main_v16) = W3 m ρ c (Proc.devRef .tc main_v16) :=
  StableHlo.after_of_forall_not_mem (b := Proc.devRef .tc main_v16) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The third stretch does not write the means' buffer. -/
theorem w5_v16 (c : Dev nD) : W5 m ρ c (Proc.devRef .tc main_v16) = W4 m ρ c (Proc.devRef .tc main_v16) :=
  StableHlo.after_of_forall_not_mem (b := Proc.devRef .tc main_v16) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The second kernel finds, as its bf16 means, the class means of the first kernel's two result arrays. -/
theorem entry1_means (c : Dev nD) :
    V5 m ρ c main_v23 = (Cert.Spec.kMean (V2 m ρ c main_v1_0) (V2 m ρ c main_v1_1) : (⟨2, ![512, 1024]⟩ : Shape).Idx → EReal) := by
  show StableHlo.after hostOps1_2 (W4 m ρ c) (Proc.devRef .tc main_v23) = _
  refine (bf16_ops (W4 m ρ c)).trans ?_
  exact (w4_v16 m ρ c).trans (w3_v16 m ρ c)

/-- The second kernel finds, as its row of factors, the reciprocal norms of those class means. -/
theorem entry1_invnorm (c : Dev nD) :
    V5 m ρ c main_v22 = (Cert.Spec.kInvNorm (Cert.Spec.kMean (V2 m ρ c main_v1_0) (V2 m ρ c main_v1_1)) : (⟨2, ![1, 512]⟩ : Shape).Idx → EReal) := by
  show StableHlo.after hostOps1_2 (W4 m ρ c) (Proc.devRef .tc main_v22) = _
  rw [kInvNorm_eq]
  refine (inv_ops (W4 m ρ c)).trans (congrArg invRow ?_)
  show StableHlo.after hostOps1_1 (W3 m ρ c) (Proc.devRef .tc main_v17) = _
  refine (norm_ops (W3 m ρ c)).trans ?_
  exact congrArg rootSq (w3_v16 m ρ c)

/-- The program's second result is those class means: the second kernel does not write them. -/
theorem exit_means (c : Dev nD) :
    V6 m ρ c main_v16 = (Cert.Spec.kMean (V2 m ρ c main_v1_0) (V2 m ρ c main_v1_1) : (⟨2, ![512, 1024]⟩ : Shape).Idx → EReal) :=
  calc W6 m ρ c (Proc.devRef .tc main_v16)
    _ = W5 m ρ c (Proc.devRef .tc main_v16) := W6_of_ne m ρ c main_v16 (by decide)
    _ = W4 m ρ c (Proc.devRef .tc main_v16) := w5_v16 m ρ c
    _ = W3 m ρ c (Proc.devRef .tc main_v16) := w4_v16 m ρ c
    _ = _ := w3_v16 m ρ c

end Cert.KernelIdeal.Host

end
-- ==== Proof.Algebra.lean ====
/-
  The two arrangements give the same extended reals.

  Sums: every row `n < 65536` is `(16 p + s) · 2048 + r` for exactly one core `p < 2`, tile `s < 16` and position
  `r < 2048`, so the sum over all rows is the sum of the two cores' partial sums; only commutativity and associativity
  of `+` are used, which hold at the infinities too.

  Logits: with `b = ‖T n‖` and `c = ‖M c‖`, both at least `ε > 0`, `a · ((1 · b⁻¹) · 50) · (1 · c⁻¹) = a · (b · c)⁻¹ · 50`,
  because `(b · c)⁻¹ = b⁻¹ · c⁻¹` for positive extended reals (at `⊤` both sides are `0`).
-/
import proofs.«406508_j53584011985262_3_alg».proof.Proof.Spec
import Idealize.ShloMosaic.PureOps.Ideal.Laws
import Idealize.ShloMosaic.Lib.ValueIdx

noncomputable section

open scoped BigOperators

namespace Cert.Spec

open Idealize.ShloMosaic Idealize.ShloMosaic.ValueIdx

/-! ## The sum over the rows, split by core, tile and position -/

/-- Rows by core, tile and position: `((p, s), r) ↦ (16 p + s) · 2048 + r` is a bijection onto the rows. -/
def rowEquiv : (Fin 2 × Fin 16) × Fin 2048 ≃ Fin 65536 :=
  (Equiv.prodCongr finProdFinEquiv (Equiv.refl (Fin 2048))).trans finProdFinEquiv

/-- The bijection is `rowOf`. -/
theorem rowEquiv_apply (p : Fin 2) (s : Fin 16) (r : Fin 2048) : rowEquiv ((p, s), r) = rowOf p s r := by
  apply Fin.ext
  show r.val + 2048 * (s.val + 16 * p.val) = (p.val * 16 + s.val) * 2048 + r.val
  omega

/-- A sum over all rows is the sum of the two cores' sums over their tiles and positions. -/
theorem sum_rows {α : Type*} [AddCommMonoid α] (f : Fin 65536 → α) :
    ∑ n : Fin 65536, f n
      = (∑ s : Fin 16, ∑ r : Fin 2048, f (rowOf 0 s r)) + ∑ s : Fin 16, ∑ r : Fin 2048, f (rowOf 1 s r) := by
  rw [← Equiv.sum_comp rowEquiv f, Fintype.sum_prod_type, Fintype.sum_prod_type, Fin.sum_univ_two]
  simp only [rowEquiv_apply]

/-- The kernel's class means — the two cores' partial sums added, over the added partial counts — are the class means. -/
theorem kMean_parts (X : (⟨2, ![65536, 1024]⟩ : Shape).Idx → EReal) (lab : (⟨1, ![65536]⟩ : Shape).Idx → BitVec 32) :
    kMean (partSum X (fun i => lab (ix1 (i 0)))) (partCount (fun i => lab (ix1 (i 0)))) = classMean X lab := by
  funext i
  -- the two cores' partial sums add up to the class sum, and the partial counts to the class count
  have hS : partSum X (fun i => lab (ix1 (i 0))) (ix3 (0 : Fin 2) (i 0) (i 1))
      + partSum X (fun i => lab (ix1 (i 0))) (ix3 (1 : Fin 2) (i 0) (i 1)) = classSum X lab (i 0) (i 1) :=
    (sum_rows fun n => hit (lab (ix1 n)) (i 0) * X (ix2 n (i 1))).symm
  have hC : partCount (fun i => lab (ix1 (i 0))) (ix3 (0 : Fin 2) (0 : Fin 1) (i 0))
      + partCount (fun i => lab (ix1 (i 0))) (ix3 (1 : Fin 2) (0 : Fin 1) (i 0)) = classCount lab (i 0) :=
    (sum_rows fun n => hit (lab (ix1 n)) (i 0)).symm
  show Ideal.div _ (max _ oneW) = Ideal.div _ (max _ oneW)
  rw [hS, hC]

/-! ## The product of reciprocals against the quotient by the product -/

/-- The word `0x3F800000` denotes `1`. -/
theorem oneW_eq : oneW = 1 := by
  simp [oneW, Ideal.ofBits, Ideal.ieee, -EReal.coe_mul]
  norm_num

/-- The word `0x0DA24260` denotes a positive real. -/
theorem epsW_pos : 0 < epsW := by
  simp [epsW, Ideal.ofBits, Ideal.ieee, -EReal.coe_mul]

/-- A norm is at least `ε`, hence positive. -/
theorem normOf_pos {n : Nat} (A : (⟨2, ![n, 1024]⟩ : Shape).Idx → EReal) (r : Fin n) : 0 < normOf A r :=
  lt_of_lt_of_le epsW_pos (le_max_right _ _)

/-- Off zero the quotient is the product with the inverse. -/
theorem div_of_ne_zero (x : EReal) {y : EReal} (h : y ≠ 0) : Ideal.div x y = x * y⁻¹ := by
  unfold Ideal.div; rw [if_neg h]

/-- The scalar law: for positive `b` and `c`, `a · ((1 / b) · f) · (1 / c) = a / (b · c) · f`. -/
theorem scalar_law (a f : EReal) {b c : EReal} (hb : 0 < b) (hc : 0 < c) :
    a * (Ideal.div oneW b * f) * Ideal.div oneW c = Ideal.div a (b * c) * f := by
  rw [div_of_ne_zero _ hb.ne', div_of_ne_zero _ hc.ne', div_of_ne_zero _ (EReal.mul_pos hb hc).ne',
    EReal.mul_inv, oneW_eq, one_mul, one_mul]
  rw [mul_assoc a (b⁻¹ * f), mul_assoc b⁻¹ f, mul_comm f, ← mul_assoc b⁻¹, ← mul_assoc a]

/-- The kernel's product of reciprocals is the reference's quotient by the product of the norms. -/
theorem kLogits_eq (T : (⟨2, ![65536, 1024]⟩ : Shape).Idx → EReal) (M : (⟨2, ![512, 1024]⟩ : Shape).Idx → EReal) :
    kLogits T M (kInvNorm M) = logitsOf T M := by
  funext i
  exact scalar_law _ _ (normOf_pos T (i 0)) (normOf_pos M (i 1))

end Cert.Spec

end
-- ==== Proof.KValue.lean ====
/-
  The idealized kernel program's two results as functions of its arguments. The first kernel's arrays hold the two
  cores' partial class sums and counts of the launched features and labels; the host operations between the kernels
  turn them into the class means (the program's second result) and the reciprocal class norms; the second kernel's
  array holds its product form of the logits of the launched targets against those means (the first result). The
  two arrangement laws then name both results as the specification's.
-/
import proofs.«406508_j53584011985262_3_alg».proof.Proof.KRun
import proofs.«406508_j53584011985262_3_alg».proof.Proof.Region0
import proofs.«406508_j53584011985262_3_alg».proof.Proof.Region1
import proofs.«406508_j53584011985262_3_alg».proof.Proof.HostGlue
import proofs.«406508_j53584011985262_3_alg».proof.Proof.Algebra

noncomputable section

open Idealize.ShloMosaic Idealize.ShloMosaic.TcCoe Idealize.ShloMosaic.ValueIdx Idealize.SL.Sem
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The launched features, labels and targets, as plain arrays. -/
abbrev feats (c : Dev nD) : (⟨2, ![65536, 1024]⟩ : Shape).Idx → EReal := m ((c : Thread nD τ).loc main_arg0)
abbrev labs (c : Dev nD) : (⟨1, ![65536]⟩ : Shape).Idx → BitVec 32 := m ((c : Thread nD τ).loc main_arg1)
abbrev targs (c : Dev nD) : (⟨2, ![65536, 1024]⟩ : Shape).Idx → EReal := m ((c : Thread nD τ).loc main_arg2)

/-- After the first kernel: the partial class sums of the launched features under the launched labels. -/
theorem parts_sums (c : Dev nD) :
    V2 m ρ c main_v1_0 = (Cert.Spec.partSum (feats m c) (fun i => labs m c (ix1 (i 0))) : (⟨3, ![2, 512, 1024]⟩ : Shape).Idx → EReal) := by
  have h := (hF0 m ρ c 2).symm.trans (R0.sums (V1 m ρ) c)
  rw [Host.entry0_features, Host.entry0_labels] at h
  exact h

/-- After the first kernel: the partial class counts of the launched labels. -/
theorem parts_counts (c : Dev nD) :
    V2 m ρ c main_v1_1 = (Cert.Spec.partCount (fun i => labs m c (ix1 (i 0))) : (⟨3, ![2, 1, 512]⟩ : Shape).Idx → EReal) := by
  have h := (hF0 m ρ c 3).symm.trans (R0.counts (V1 m ρ) c)
  rw [Host.entry0_labels] at h
  exact h

/-- The program's second result: the class means. -/
theorem means_eq (c : Dev nD) : V6 m ρ c main_v16 = (Cert.Spec.classMean (feats m c) (labs m c) : (⟨2, ![512, 1024]⟩ : Shape).Idx → EReal) := by
  rw [Host.exit_means, parts_sums, parts_counts]
  exact Cert.Spec.kMean_parts (feats m c) (labs m c)

/-- The program's first result: the logits of the targets against the class means. -/
theorem logits_eq (c : Dev nD) :
    V6 m ρ c main_v24 = (Cert.Spec.logits (feats m c) (labs m c) (targs m c) : (⟨2, ![65536, 512]⟩ : Shape).Idx → EReal) := by
  have h := (hF1 m ρ c 3).symm.trans (R1.logits (V5 m ρ) c)
  rw [Host.entry1_targets, Host.entry1_means, Host.entry1_invnorm, parts_sums, parts_counts,
    Cert.Spec.kMean_parts (feats m c) (labs m c), Cert.Spec.kLogits_eq] at h
  exact h

/-- The run, read: every weakly fair execution terminates with the two results at the specification's arrays of the
    launched arguments, and the arguments as launched. -/
theorem run : θ_run defs (onTc (τ := τ) (main (F := Ideal))) ⟨m, fun _ => 0, ρ⟩ (fun r => ∀ c : Dev nD,
      r.2.mem ((c.tc : Thread nD τ).loc main_v24) = (Cert.Spec.logits (feats m c) (labs m c) (targs m c) : (⟨2, ![65536, 512]⟩ : Shape).Idx → EReal)
      ∧ r.2.mem ((c.tc : Thread nD τ).loc main_v16) = (Cert.Spec.classMean (feats m c) (labs m c) : (⟨2, ![512, 1024]⟩ : Shape).Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (logits_eq m ρ c), (h c).2.1.trans (means_eq m ρ c), (h c).2.2⟩)
    (run_results m ρ)

end Cert.KernelIdeal.KValue

end
-- ==== Proof.RefValue.lean ====
/-
  The reference program's two results, read index by index. The scatter-add of the feature rows into a zero [512, 1024]
  array adds row `n` into row `lab n` when that word, read signed, lies in `[0, 512)`, and drops it otherwise: entry
  `(c, d)` ends at `0 + ∑ₙ hit (lab n) c · X n d`; the scatter-add of ones gives the counts the same way. The rest is
  pointwise: the division by `max count 1`, the two row norms, the inner products, the quotient and the scale.
-/
import proofs.«406508_j53584011985262_3_alg».proof.Proof.Gen.ReferenceIdeal.Read
import proofs.«406508_j53584011985262_3_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read

/-! ## Where an update lands -/

/-- An update index lands on operand index `i` exactly when, on every axis, start plus window coordinate is `i`'s. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  constructor
  · intro h
    split at h
    · rename_i hc
      injection h with h
      subst h
      intro a
      exact (Int.toNat_of_nonneg (hc a).1).symm
    · exact absurd h (by simp)
  · intro h
    have hc : ∀ a, 0 ≤ d.start j idx a + d.window j a ∧ d.start j idx a + d.window j a < s.size a := fun a => by
      rw [h a]; exact ⟨Int.natCast_nonneg _, by exact_mod_cast (i a).isLt⟩
    rw [dif_pos hc]
    congr 1
    funext a
    refine Fin.ext ?_
    show (d.start j idx a + d.window j a).toNat = (i a).val
    rw [h a]; rfl

/-- The dimension numbers of the two scatters: rows of `[65536, 1024]` into rows of `[512, 1024]`, and scalars of `[65536]` into `[512]`. -/
abbrev dS := scatter_S512x1024_S65536x1_S65536x1024_1_0_0_1
abbrev dN := scatter_S512_S65536x1_S65536_n_0_0_1

/-- On the scattered axis the window of update `j` starts at the index word of row `j 0`, read signed. -/
theorem dS_start0 (j : S65536x1024.Idx) (idx : IVec S65536x1 32) :
    dS.start j idx 0 = (idx (ix2 (j 0) (0 : Fin 1))).toInt := by
  unfold ScatterDims.start
  rw [dif_pos (show (0 : Fin S512x1024.rank) ∈ dS.scatterDimsToOperandDims by decide)]
  exact congrArg (fun q => (idx q).toInt) (funext fun b => Fin.ext (by match b with | ⟨0, _⟩ => rfl | ⟨1, _⟩ => rfl))

/-- On the column axis, which the index vector does not name, every window starts at `0`. -/
theorem dS_start1 (j : S65536x1024.Idx) (idx : IVec S65536x1 32) : dS.start j idx 1 = 0 := by
  unfold ScatterDims.start
  rw [dif_neg (show ¬ (1 : Fin S512x1024.rank) ∈ dS.scatterDimsToOperandDims by decide)]

/-- The scattered axis is an inserted one: the window coordinate there is `0`. -/
theorem dS_window0 (j : S65536x1024.Idx) : dS.window j 0 = 0 := by
  unfold ScatterDims.window
  rw [dif_neg (show ¬ (0 : Fin S512x1024.rank) ∈ dS.sKept by decide)]

/-- On the column axis the window coordinate is the update's column. -/
theorem dS_window1 (j : S65536x1024.Idx) : dS.window j 1 = (j 1).val := by
  unfold ScatterDims.window
  rw [dif_pos (show (1 : Fin S512x1024.rank) ∈ dS.sKept by decide)]
  rfl

/-- The count scatter's window of update `j` starts at the index word of row `j 0`, read signed. -/
theorem dN_start0 (j : S65536.Idx) (idx : IVec S65536x1 32) :
    dN.start j idx 0 = (idx (ix2 (j 0) (0 : Fin 1))).toInt := by
  unfold ScatterDims.start
  rw [dif_pos (show (0 : Fin S512.rank) ∈ dN.scatterDimsToOperandDims by decide)]
  exact congrArg (fun q => (idx q).toInt) (funext fun b => Fin.ext (by match b with | ⟨0, _⟩ => rfl | ⟨1, _⟩ => rfl))

/-- The count scatter's only axis is an inserted one: the window coordinate is `0`. -/
theorem dN_window0 (j : S65536.Idx) : dN.window j 0 = 0 := by
  unfold ScatterDims.window
  rw [dif_neg (show ¬ (0 : Fin S512.rank) ∈ dN.sKept by decide)]

/-- Below `2 ^ 31` a word read signed is `c` exactly when it is the word of `c`. -/
theorem toInt_eq_iff (w : BitVec 32) (c : Fin 512) : w.toInt = (c.val : Int) ↔ w = BitVec.ofNat 32 c.val := by
  have hc := c.isLt
  have hw := w.isLt
  rw [← BitVec.toNat_inj, BitVec.toNat_ofNat, BitVec.toInt_eq_toNat_cond]
  split <;> omega

/-- Update `(n, b)` of the class-sum scatter lands on `(c, d)` exactly when row `n`'s index word is `c` and `b = d`. -/
theorem dS_lands (n : Fin 65536) (b : Fin 1024) (idx : IVec S65536x1 32) (c : Fin 512) (d : Fin 1024) :
    dS.resultIdx? (ix2 n b) idx = some (ix2 c d) ↔ idx (ix2 n (0 : Fin 1)) = BitVec.ofNat 32 c.val ∧ b = d := by
  rw [resultIdx?_eq_some_iff, Fin.forall_fin_two, dS_start0, dS_start1, dS_window0, dS_window1]
  show (idx (ix2 n (0 : Fin 1))).toInt + ((0 : Nat) : Int) = ((c.val : Nat) : Int) ∧ (0 : Int) + ((b.val : Nat) : Int) = ((d.val : Nat) : Int) ↔ _
  rw [Nat.cast_zero, add_zero, zero_add, toInt_eq_iff, Int.natCast_inj, Fin.val_inj]

/-- Update `n` of the class-count scatter lands on `c` exactly when row `n`'s index word is `c`. -/
theorem dN_lands (n : Fin 65536) (idx : IVec S65536x1 32) (c : Fin 512) :
    dN.resultIdx? (ix1 n) idx = some (ix1 c) ↔ idx (ix2 n (0 : Fin 1)) = BitVec.ofNat 32 c.val := by
  rw [resultIdx?_eq_some_iff, Fin.forall_fin_one, dN_start0, dN_window0]
  show (idx (ix2 n (0 : Fin 1))).toInt + ((0 : Nat) : Int) = ((c.val : Nat) : Int) ↔ _
  rw [Nat.cast_zero, add_zero, toInt_eq_iff]

/-! ## The two scatter-adds as sums over the rows -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  exact (Equiv.sum_comp e.symm f).symm

/-- The label column the scatters read is the label vector. -/
theorem labelColumn_v1 (L : (⟨S65536, .i32⟩ : BufTy).Contents (Elt Ideal)) (n : Fin 65536) :
    val_main_v1 (F := Ideal) L (ix2 n (0 : Fin 1)) = L (ix1 n) := by
  rw [val_main_v1_apply]
  exact congrArg L (funext fun a => Fin.ext (by match a with | ⟨0, _⟩ => rfl))

/-- The same for the second copy of the label column. -/
theorem labelColumn_v5 (L : (⟨S65536, .i32⟩ : BufTy).Contents (Elt Ideal)) (n : Fin 65536) :
    val_main_v5 (F := Ideal) L (ix2 n (0 : Fin 1)) = L (ix1 n) := by
  rw [val_main_v5_apply]
  exact congrArg L (funext fun a => Fin.ext (by match a with | ⟨0, _⟩ => rfl))

/-- The scatter-add of ones: entry `c` counts the rows whose label word is `c`. -/
theorem val_main_v6_apply (L : (⟨S65536, .i32⟩ : BufTy).Contents (Elt Ideal)) (c : Fin 512) :
    val_main_v6 (F := Ideal) L (ix1 c) = Cert.Spec.classCount L c := by
  unfold val_main_v6 Cert.Spec.classCount
  simp only [Host.scatterAdd, Ideal.hostScatterAdd_def]
  unfold Ideal.hostScatterAdd
  rw [val_main_v4_apply, val_main_cst_1_apply, Ideal.ofBits_def, Ideal.ofBits_zero_f32, zero_add, Finset.sum_filter, sum_idx1]
  refine Finset.sum_congr rfl fun n _ => ?_
  rw [val_main_v3_apply, val_main_cst_0_apply, Ideal.ofBits_def, Ideal.ofBits_one_f32]
  unfold Cert.Spec.hit
  exact if_congr ((dN_lands n _ c).trans (by rw [labelColumn_v5])) rfl rfl

/-- The scatter-add of the feature rows: entry `(c, d)` is the sum of column `d` over the rows whose label word is `c`. -/
theorem val_main_v2_apply (X : (⟨S65536x1024, .f32⟩ : BufTy).Contents (Elt Ideal)) (L : (⟨S65536, .i32⟩ : BufTy).Contents (Elt Ideal))
    (c : Fin 512) (d : Fin 1024) :
    val_main_v2 (F := Ideal) X L (ix2 c d) = Cert.Spec.classSum X L c d := by
  unfold val_main_v2 Cert.Spec.classSum
  simp only [Host.scatterAdd, Ideal.hostScatterAdd_def]
  unfold Ideal.hostScatterAdd
  rw [val_main_v0_apply, val_main_cst_apply, Ideal.ofBits_def, Ideal.ofBits_zero_f32, zero_add, Finset.sum_filter, sum_idx2]
  refine Finset.sum_congr rfl fun n _ => ?_
  have h : ∀ b : Fin 1024, (dS.resultIdx? (ix2 n b) (val_main_v1 (F := Ideal) L) = some (ix2 c d)) ↔ (L (ix1 n) = BitVec.ofNat 32 c.val ∧ b = d) :=
    fun b => (dS_lands n b _ c d).trans (by rw [labelColumn_v1])
  simp only [h]
  unfold Cert.Spec.hit
  by_cases hL : L (ix1 n) = BitVec.ofNat 32 c.val
  · simp only [hL, true_and, if_true, one_mul]
    rw [Finset.sum_ite_eq' Finset.univ d, if_pos (Finset.mem_univ d)]
  · simp only [hL, false_and, if_false, zero_mul, Finset.sum_const_zero]

/-! ## The two results -/

/-- The reference's class means are the specification's. -/
theorem means_eq (X : (⟨S65536x1024, .f32⟩ : BufTy).Contents (Elt Ideal)) (L : (⟨S65536, .i32⟩ : BufTy).Contents (Elt Ideal)) :
    val_main_v11 (F := Ideal) X L = Cert.Spec.classMean X L := by
  funext i
  obtain ⟨c, d, rfl⟩ : ∃ c d, i = ix2 c d := ⟨_, _, eq_ix2 i⟩
  rw [val_main_v11_apply, val_main_v10_apply, val_main_v9_apply, val_main_v8_apply, val_main_v7_apply,
    val_main_cst_2_apply, val_main_v2_apply]
  have e : idx_main_v9 (idx_main_v10 (ix2 c d)) = ix1 c := funext fun a => Fin.ext (by match a with | ⟨0, _⟩ => rfl)
  rw [e, val_main_v6_apply]
  rfl

/-- The reference's logits are the specification's. -/
theorem logits_eq (X : (⟨S65536x1024, .f32⟩ : BufTy).Contents (Elt Ideal)) (L : (⟨S65536, .i32⟩ : BufTy).Contents (Elt Ideal))
    (T : (⟨S65536x1024, .f32⟩ : BufTy).Contents (Elt Ideal)) :
    val_main_v26 (F := Ideal) X L T = Cert.Spec.logits X L T := by
  funext i
  obtain ⟨n, c, rfl⟩ : ∃ n c, i = ix2 n c := ⟨_, _, eq_ix2 i⟩
  rw [val_main_v26_apply, val_main_v25_apply, val_main_cst_5_apply, val_main_v24_apply, val_main_v23_apply,
    val_main_v22_apply, val_main_v21_apply, val_main_v20_apply, val_main_v19_apply, val_main_v18_apply,
    val_main_v17_apply, val_main_v16_apply, val_main_cst_4_apply, val_main_v15_apply, val_main_call1_v1_apply,
    val_main_call1_cst_apply, val_main_v14_apply, val_main_v13_apply, val_main_cst_3_apply, val_main_v12_apply,
    val_main_call0_v1_apply, val_main_call0_cst_apply]
  have e1 : ∀ k : Fin 1024, lidx_main_v18 (ix2 n c) k = ix2 n k := fun k =>
    funext fun a => Fin.ext (by match a with | ⟨0, _⟩ => rfl | ⟨1, _⟩ => rfl)
  have e2 : ∀ k : Fin 1024, ridx_main_v18 (ix2 n c) k = ix2 c k := fun k =>
    funext fun a => Fin.ext (by match a with | ⟨0, _⟩ => rfl | ⟨1, _⟩ => rfl)
  have e3 : ∀ k : Fin 1024, idx_main_call0_v1 (idx_main_v19 (idx_main_v21 (ix2 n c))) k = ix2 n k := fun k =>
    funext fun a => Fin.ext (by match a with | ⟨0, _⟩ => rfl | ⟨1, _⟩ => rfl)
  have e4 : ∀ k : Fin 1024, idx_main_call1_v1 (idx_main_v20 (idx_main_v22 (ix2 n c))) k = ix2 c k := fun k =>
    funext fun a => Fin.ext (by match a with | ⟨0, _⟩ => rfl | ⟨1, _⟩ => rfl)
  simp only [val_main_call1_v0_apply, val_main_call0_v0_apply, means_eq, e1, e2, e3, e4, Ideal.ofBits_def,
    Ideal.ofBits_zero_f32, zero_add, Ideal.mulf_def, Ideal.hostDivf_def, Ideal.maximumf_def, Ideal.hostUnary_sqrt_def]
  rfl

end Cert.ReferenceIdeal.RefValue

end
-- ==== Proof.lean ====
/-
  The certificate: a masked class-mean pooling followed by scaled cosine similarities, as two Pallas kernels, against
  its jnp reference, over the extended reals.

  Both programs compute, from features `X`, labels and targets `T`, the class means `M c d = (∑ₙ [lab n = c] X n d) /
  max (#{n : lab n = c}) 1` and the logits `(∑_d T n d · M c d) / (‖T n‖ · ‖M c‖) · 50` with each norm kept above
  `ε`. The reference scatters rows into classes; the kernel multiplies by a one-hot matrix, sixteen tiles on each of
  two cores, and multiplies by reciprocals instead of dividing by a product. The two laws that join them
  (Proof/Algebra.lean) use only that `+` and `·` are commutative and associative on the extended reals and that
  `(b · c)⁻¹ = b⁻¹ · c⁻¹` for positive `b`, `c`; the precondition is not opened. Labels outside `[0, 512)` match no
  class on either side.

  The frames of the two kernel programs are the generated ones; the reference's frame is its generated run with the
  results dropped; the one rewrite of the ideal pass (a bf16 round trip of the one-hot matrix removed) is its rule's
  statement.
-/
import proofs.«406508_j53584011985262_3_alg».proof.Defs
import proofs.«406508_j53584011985262_3_alg».proof.Proof.Gen.Kernel
import proofs.«406508_j53584011985262_3_alg».proof.Proof.Gen.Kernel.Frame
import proofs.«406508_j53584011985262_3_alg».proof.Proof.Gen.KernelIdeal
import proofs.«406508_j53584011985262_3_alg».proof.Proof.Gen.KernelIdeal.Frame
import proofs.«406508_j53584011985262_3_alg».proof.Proof.Gen.ReferenceIdeal
import proofs.«406508_j53584011985262_3_alg».proof.Proof.Gen.ReferenceIdeal.Run
import proofs.«406508_j53584011985262_3_alg».proof.Proof.Gen.ReferenceIdeal.Read
import proofs.«406508_j53584011985262_3_alg».proof.Proof.Gen.Pre_finite_inputs
import proofs.«406508_j53584011985262_3_alg».proof.Proof.KValue
import proofs.«406508_j53584011985262_3_alg».proof.Proof.RefValue

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The one ledger entry: widening back a value just narrowed to bf16 is the value, at `Ideal`. -/
theorem preserves : Cert.preserves_Kernel_KernelIdeal :=
  IdealRules.truncf_extf.statement _ .f32 .bf16

/-- Both programs end with the specification's logits and class means of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.logits (Cert.KernelIdeal.KValue.feats m c) (Cert.KernelIdeal.KValue.labs m c) (Cert.KernelIdeal.KValue.targs m c),
    fun c => Cert.Spec.classMean (Cert.KernelIdeal.KValue.feats m c) (Cert.KernelIdeal.KValue.labs m c),
    Cert.KernelIdeal.KValue.run m ρ, ?_⟩
  refine (θ_run Cert.ReferenceIdeal.defs _ _).mono (fun r h c => ?_) (Cert.ReferenceIdeal.Value.run (F := Ideal) m' ρ')
  obtain ⟨h1, h2, h3⟩ := h c
  refine ⟨h1.trans ?_, h2.trans ?_, h3⟩
  · rw [Cert.ReferenceIdeal.Read.val_main_v26_eq, Cert.ReferenceIdeal.RefValue.logits_eq, (hagree c).1, (hagree c).2.1, (hagree c).2.2]
  · rw [Cert.ReferenceIdeal.Read.val_main_v11_eq, Cert.ReferenceIdeal.RefValue.means_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
